-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8192x512 .f32) (main_arg1 : IVec S2x262144 32) (main_arg2 : FVec F S512x512 .f32) (main_arg3 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S8192x8192 : Shape := ⟨2, ![8192, 8192]⟩
abbrev S270336x1 : Shape := ⟨2, ![270336, 1]⟩
abbrev S270336x2 : Shape := ⟨2, ![270336, 2]⟩
abbrev S1024x512 : Shape := ⟨2, ![1024, 512]⟩
abbrev S1x512 : Shape := ⟨2, ![1, 512]⟩
abbrev S8192x1 : Shape := ⟨2, ![8192, 1]⟩
abbrev S1x8192 : Shape := ⟨2, ![1, 8192]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 50
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x512, .f32⟩
  | .hbm, ⟨3, _⟩ => ⟨S512, .f32⟩
  | .hbm, ⟨4, _⟩ => ⟨S8192, .i32⟩
  | .hbm, ⟨5, _⟩ => ⟨S1x262144, .i32⟩
  | .hbm, ⟨6, _⟩ => ⟨S262144, .i32⟩
  | .hbm, ⟨7, _⟩ => ⟨S270336, .i32⟩
  | .hbm, ⟨8, _⟩ => ⟨S1x262144, .i32⟩
  | .hbm, ⟨9, _⟩ => ⟨S262144, .i32⟩
  | .hbm, ⟨10, _⟩ => ⟨S270336, .i32⟩
  | .hbm, ⟨11, _⟩ => ⟨S_, .f32⟩
  | .hbm, ⟨12, _⟩ => ⟨S8192x8192, .f32⟩
  | .hbm, ⟨13, _⟩ => ⟨S_, .i32⟩
  | .hbm, ⟨14, _⟩ => ⟨S270336, .i32⟩
  | .hbm, ⟨15, _⟩ => ⟨S270336, .i1⟩
  | .hbm, ⟨16, _⟩ => ⟨S_, .i32⟩
  | .hbm, ⟨17, _⟩ => ⟨S270336, .i32⟩
  | .hbm, ⟨18, _⟩ => ⟨S270336, .i32⟩
  | .hbm, ⟨19, _⟩ => ⟨S270336, .i32⟩
  | .hbm, ⟨20, _⟩ => ⟨S_, .i32⟩
  | .hbm, ⟨21, _⟩ => ⟨S270336, .i32⟩
  | .hbm, ⟨22, _⟩ => ⟨S270336, .i1⟩
  | .hbm, ⟨23, _⟩ => ⟨S_, .i32⟩
  | .hbm, ⟨24, _⟩ => ⟨S270336, .i32⟩
  | .hbm, ⟨25, _⟩ => ⟨S270336, .i32⟩
  | .hbm, ⟨26, _⟩ => ⟨S270336, .i32⟩
  | .hbm, ⟨27, _⟩ => ⟨S270336x1, .i32⟩
  | .hbm, ⟨28, _⟩ => ⟨S270336x1, .i32⟩
  | .hbm, ⟨29, _⟩ => ⟨S270336x2, .i32⟩
  | .hbm, ⟨30, _⟩ => ⟨S_, .f32⟩
  | .hbm, ⟨31, _⟩ => ⟨S270336, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .i1⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x512, .bf16⟩
  | .hbm, ⟨47, _⟩ => ⟨S8192x1, .f32⟩
  | .hbm, ⟨48, _⟩ => ⟨S1x8192, .f32⟩
  | .hbm, ⟨49, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512, .f32⟩
  | .local _ .vmem, ⟨4, _⟩ => ⟨S1024x512, .bf16⟩
  | .local _ .vmem, ⟨5, _⟩ => ⟨S1024x512, .bf16⟩
  | .local _ .vmem, ⟨6, _⟩ => ⟨S1024x1024, .f32⟩
  | .local _ .vmem, ⟨7, _⟩ => ⟨S1024x1024, .f32⟩
  | .local _ .vmem, ⟨8, _⟩ => ⟨S1024x1, .f32⟩
  | .local _ .vmem, ⟨9, _⟩ => ⟨S1024x1, .f32⟩
  | .local _ .vmem, ⟨10, _⟩ => ⟨S1x1024, .f32⟩
  | .local _ .vmem, ⟨11, _⟩ => ⟨S1x1024, .f32⟩
  | .local _ .vmem, ⟨12, _⟩ => ⟨S8192x512, .bf16⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_call0_v0 : Ref sig .tc := ⟨.hbm, 43, rfl⟩
abbrev main_call0_v1 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v14 : BitVec 32 := Scalar.muli arg1 c1024_i32
  v14
def k1_off1 (i : grid1.Coords) : Fin 2 → Nat :=
  let arg1 : BitVec 32 := BitVec.ofNat 32 (i 1).val
  let c1024_i32 : BitVec 32 := 1024#32
  let v14 : BitVec 32 := Scalar.muli arg1 c1024_i32
  let v15 : BitVec 32 := v14
  let v16 : Index := Scalar.indexCast v15
  let c0_6 : Index := 0#32
  ![v16.toNat, 0]
def k1_cond2 (i : grid1.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_11 : BitVec 32 := 0#32
  let v27 : BitVec 1 := Scalar.cmpi .ne v26 c0_i32_11
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S8192x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S8192x8192 : S_.BroadcastsInDim S8192x8192 (![] : Fin 0 → Fin S8192x8192.rank)
  bcast_S_S270336 : S_.BroadcastsInDim S270336 (![] : Fin 0 → Fin S270336.rank)
  bcast_S270336_S270336x1_0 : S270336.BroadcastsInDim S270336x1 (![0] : Fin 1 → Fin S270336x1.rank)
  concatenates_S270336x1_S270336x1_S270336x2_d1 : Shape.Concatenates [S270336x1, S270336x1] S270336x2 1
  reducesTo_S8192x8192_S8192_d1 : S8192x8192.ReducesTo [1] S8192
  h_S_ : 0 < S_.numel
  bcast_S_S8192 : S_.BroadcastsInDim S8192 (![] : Fin 0 → Fin S8192.rank)
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  shapeCasts_S8192_S8192x1 : S8192.ShapeCasts S8192x1
  shapeCasts_S8192_S1x8192 : S8192.ShapeCasts S1x8192
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  scatter_S8192x8192_S270336x2_S270336_n_01_01_1_wf : ScatterDims.WF S8192x8192 S270336x2 S270336 [] [0, 1] [0, 1] 1
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x512.size a ≤ S8192x512.size a
  hwx1_3 : ∀ i : grid1.Coords, EltTy.bits .bf16 = 32 ∨ (Rect.block (s := S8192x512) S8192x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S8192x512.size a
  hwx1_4 : ∀ i : grid1.Coords, EltTy.bits .f32 = 32 ∨ (Rect.block (s := S8192x512) S1024x512.size (cc1_transform_4 i) (hinb1_4 i)).WholeWords (EltTy.packing .f32)

variable [Facts₀]

def scatter_S8192x8192_S270336x2_S270336_n_01_01_1 : ScatterDims S8192x8192 S270336x2 S270336 where
  updateWindowDims := []
  insertedWindowDims := [0, 1]
  scatterDimsToOperandDims := [0, 1]
  indexVectorDim := 1
  wf := scatter_S8192x8192_S270336x2_S270336_n_01_01_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v30) S8192x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S8192x8192 : Shape := ⟨2, ![8192, 8192]⟩
abbrev S270336x1 : Shape := ⟨2, ![270336, 1]⟩
abbrev S270336x2 : Shape := ⟨2, ![270336, 2]⟩
abbrev S8192x1 : Shape := ⟨2, ![8192, 1]⟩
abbrev S1x8192 : Shape := ⟨2, ![1, 8192]⟩
abbrev S1x512 : Shape := ⟨2, ![1, 512]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x512, .f32⟩
  | .hbm, ⟨3, _⟩ => ⟨S512, .f32⟩
  | .hbm, ⟨4, _⟩ => ⟨S8192, .i32⟩
  | .hbm, ⟨5, _⟩ => ⟨S1x262144, .i32⟩
  | .hbm, ⟨6, _⟩ => ⟨S262144, .i32⟩
  | .hbm, ⟨7, _⟩ => ⟨S270336, .i32⟩
  | .hbm, ⟨8, _⟩ => ⟨S1x262144, .i32⟩
  | .hbm, ⟨9, _⟩ => ⟨S262144, .i32⟩
  | .hbm, ⟨10, _⟩ => ⟨S270336, .i32⟩
  | .hbm, ⟨11, _⟩ => ⟨S_, .f32⟩
  | .hbm, ⟨12, _⟩ => ⟨S8192x8192, .f32⟩
  | .hbm, ⟨13, _⟩ => ⟨S_, .i32⟩
  | .hbm, ⟨14, _⟩ => ⟨S270336, .i32⟩
  | .hbm, ⟨15, _⟩ => ⟨S270336, .i1⟩
  | .hbm, ⟨16, _⟩ => ⟨S_, .i32⟩
  | .hbm, ⟨17, _⟩ => ⟨S270336, .i32⟩
  | .hbm, ⟨18, _⟩ => ⟨S270336, .i32⟩
  | .hbm, ⟨19, _⟩ => ⟨S270336, .i32⟩
  | .hbm, ⟨20, _⟩ => ⟨S_, .i32⟩
  | .hbm, ⟨21, _⟩ => ⟨S270336, .i32⟩
  | .hbm, ⟨22, _⟩ => ⟨S270336, .i1⟩
  | .hbm, ⟨23, _⟩ => ⟨S_, .i32⟩
  | .hbm, ⟨24, _⟩ => ⟨S270336, .i32⟩
  | .hbm, ⟨25, _⟩ => ⟨S270336, .i32⟩
  | .hbm, ⟨26, _⟩ => ⟨S270336, .i32⟩
  | .hbm, ⟨27, _⟩ => ⟨S270336x1, .i32⟩
  | .hbm, ⟨28, _⟩ => ⟨S270336x1, .i32⟩
  | .hbm, ⟨29, _⟩ => ⟨S270336x2, .i32⟩
  | .hbm, ⟨30, _⟩ => ⟨S_, .f32⟩
  | .hbm, ⟨31, _⟩ => ⟨S270336, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .i1⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192x8192, .f32⟩
  | .hbm, ⟨48, _⟩ => ⟨S8192x8192, .f32⟩
  | .hbm, ⟨49, _⟩ => ⟨S1x8192, .f32⟩
  | .hbm, ⟨50, _⟩ => ⟨S8192x8192, .f32⟩
  | .hbm, ⟨51, _⟩ => ⟨S8192x8192, .f32⟩
  | .hbm, ⟨52, _⟩ => ⟨S512x512, .f32⟩
  | .hbm, ⟨53, _⟩ => ⟨S8192x512, .f32⟩
  | .hbm, ⟨54, _⟩ => ⟨S1x512, .f32⟩
  | .hbm, ⟨55, _⟩ => ⟨S8192x512, .f32⟩
  | .hbm, ⟨56, _⟩ => ⟨S8192x512, .f32⟩
  | .hbm, ⟨57, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_call0_v0 : Ref sig .tc := ⟨.hbm, 43, rfl⟩
abbrev main_call0_v1 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S8192x8192 : S_.BroadcastsInDim S8192x8192 (![] : Fin 0 → Fin S8192x8192.rank)
  bcast_S_S270336 : S_.BroadcastsInDim S270336 (![] : Fin 0 → Fin S270336.rank)
  bcast_S270336_S270336x1_0 : S270336.BroadcastsInDim S270336x1 (![0] : Fin 1 → Fin S270336x1.rank)
  concatenates_S270336x1_S270336x1_S270336x2_d1 : Shape.Concatenates [S270336x1, S270336x1] S270336x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  scatter_S8192x8192_S270336x2_S270336_n_01_01_1_wf : ScatterDims.WF S8192x8192 S270336x2 S270336 [] [0, 1] [0, 1] 1
  dot_S8192x512_S512x512_S8192x512_1_0_0_1_n_n_wf : DotDims.WF S8192x512 S512x512 S8192x512 [1] [0] [0] [1] [] []
  dot_S8192x8192_S8192x512_S8192x512_1_0_0_1_n_n_wf : DotDims.WF S8192x8192 S8192x512 S8192x512 [1] [0] [0] [1] [] []

variable [Facts₀]

def scatter_S8192x8192_S270336x2_S270336_n_01_01_1 : ScatterDims S8192x8192 S270336x2 S270336 where
  updateWindowDims := []
  insertedWindowDims := [0, 1]
  scatterDimsToOperandDims := [0, 1]
  indexVectorDim := 1
  wf := scatter_S8192x8192_S270336x2_S270336_n_01_01_1_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.Frame.Body0.lean ====
/-
  The first kernel's body, once and for all buffers: the linear layer of one row block.

  On whole staging memrefs holding a block `x` of node features (1024 × 512), the whole weight matrix `w`
  (512 × 512), the bias `b` (512) and anything in the output block, the body loads the three, forms
  `x · wᵀ + b` (the product into a zero accumulator, every operand narrowed to bf16 first and the sum narrowed
  again: at the exact instance these narrowings are the identity) and stores it over the whole output block.
  So the inputs are left as found and the output block ends at ONE piece covering it, whose payload is the
  skeleton's `k0_pay1` of the three loads (`linOut`). Stated at any float family: the word-level program and
  its idealization run the same text.
-/
import proofs.«109997_j19645180412416_1_alg».proof.Proof.Gen.KernelIdeal.Skeleton
import proofs.«109997_j19645180412416_1_alg».proof.Proof.Gen.KernelIdeal.Launch
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole 1024 × 512 block, as the rectangle every load and store of it names. -/
abbrev rBlk : Rect S1024x512 := Rect.unit (s := S1024x512) ![0, 0] S1024x512.size inb_S1024x512_S1024x512_0_0
/-- The whole weight matrix. -/
abbrev rW : Rect S512x512 := Rect.unit (s := S512x512) ![0, 0] S512x512.size inb_S512x512_S512x512_0_0
/-- The whole bias vector. -/
abbrev rB : Rect S512 := Rect.unit (s := S512) ![0] S512.size inb_S512_S512_0

/-- What the linear body leaves in its output block: the one store's payload, `x · wᵀ + b` of the loaded
    operands, laid over the whole block. -/
def linOut (x : Vec F S1024x512 .f32) (w : Vec F S512x512 .f32) (b : Vec F S512 .f32) : Vec F S1024x512 .bf16 :=
  View.canon [⟨rBlk, k0_pay1 (View.ld x rBlk) (View.ld w rW) (View.ld b rB)⟩]

/-- The one store covers the block. -/
theorem linCover (p0 : Vec F S1024x512 .bf16) (y : S1024x512.Idx) :
    ∃ pc ∈ ([⟨rBlk, p0⟩] : List (View.Piece (Elt F) S1024x512 .bf16)), y ∈ pc.1.set :=
  View.cover_of_tiled [⟨rBlk, p0⟩] S1024x512.size (by rfl) y

set_option maxHeartbeats 1000000 in
/-- The linear body's triple: inputs kept, the output block at `linOut` of them. -/
theorem sound_linear (c : Dev nD) (E : Set ℕ) (i : grid0.Coords)
    (arg1 : Memref sig .tc .vmem S1024x512 .f32) (harg1 : arg1.IsWhole)
    (arg2 : Memref sig .tc .vmem S512x512 .f32) (harg2 : arg2.IsWhole)
    (arg3 : Memref sig .tc .vmem S512 .f32) (harg3 : arg3.IsWhole)
    (arg4 : Memref sig .tc .vmem S1024x512 .bf16) (harg4 : arg4.IsWhole)
    (x : Vec F S1024x512 .f32) (w : Vec F S512x512 .f32) (b : Vec F S512 .f32) (K : PUnit → sProp 𝕄) :
    iprop(owns (c : Thread nD τ) arg1 fullShare x ∗ owns (c : Thread nD τ) arg2 fullShare w
        ∗ owns (c : Thread nD τ) arg3 fullShare b ∗ (∃ d, owns (c : Thread nD τ) arg4 fullShare d)
        ∗ (iprop(owns (c : Thread nD τ) arg1 fullShare x ∗ owns (c : Thread nD τ) arg2 fullShare w
            ∗ owns (c : Thread nD τ) arg3 fullShare b ∗ owns (c : Thread nD τ) arg4 fullShare (linOut x w b)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (linCover _)

end Cert.KernelIdeal.Hand

end
-- ==== Proof.Frame.Body1.lean ====
/-
  The second kernel's body, once and for all buffers: one step of the aggregation `out = norm · h`.

  At grid point `(r, k)` the body holds a 1024 × 1024 tile `a` of the adjacency matrix, the tile's row scalings
  `dr` (1024 × 1) and column scalings `dc` (1 × 1024), the whole feature matrix `h` (8192 × 512, resident) and an
  accumulator scratch. It forms the normalised tile `(dr · a) · dc`, multiplies it into rows `1024 k …` of `h`
  (a product into a zero accumulator) and adds the result to the scratch; at `k = 0` the scratch is first set to
  zero, and at `k = 7` the scratch is copied over the output block. Three control cases meet the 8 × 8 grid
  (`k = 0` and `k = 7` never coincide): the first step of a row block, a middle step, the last step.
  What each leaves is stated through the skeleton's payloads: `gcnZero` (the reset), `gcnAcc` (one accumulation
  over what the scratch held), `gcnOut` (the copy-out). Stated at any float family.
-/
import proofs.«109997_j19645180412416_1_alg».proof.Proof.Frame.Body0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is the first step of its row block (`k = 0`): the body's first branch, as printed. -/
abbrev condFirst (i : grid1.Coords) : Prop :=
  (Scalar.cmpi .ne (Scalar.extui (Scalar.cmpi .eq (BitVec.ofNat 32 (i 1).val) 0#32)) 0#32) = 1#1
/-- The point is the last step of its row block (`k = 7`): the body's second branch. -/
abbrev condLast (i : grid1.Coords) : Prop := k1_cond2 i = 1#1

/-- The whole adjacency tile, the whole column of row scalings, the whole row of column scalings. -/
abbrev rA : Rect S1024x1024 := Rect.unit (s := S1024x1024) ![0, 0] S1024x1024.size inb_S1024x1024_S1024x1024_0_0
abbrev rDr : Rect S1024x1 := Rect.unit (s := S1024x1) ![0, 0] S1024x1.size inb_S1024x1_S1024x1_0_0
abbrev rDc : Rect S1x1024 := Rect.unit (s := S1x1024) ![0, 0] S1x1024.size inb_S1x1024_S1x1024_0_0
/-- Rows `1024 k … 1024 k + 1023` of the resident feature matrix at point `i = (r, k)`. -/
abbrev rH (i : grid1.Coords) : Rect S8192x512 := Rect.unit (s := S8192x512) (k1_off1 i) S1024x512.size (k1_off1_inb i)

/-- The scratch after the reset: zero everywhere. -/
def gcnZero : Vec F S1024x512 .f32 := View.canon [⟨rBlk, k1_pay1 (F := F)⟩]

/-- The scratch after one accumulation over contents `s`: `s + ((dr · a) · dc) · h[1024 k …]`. -/
def gcnAcc (i : grid1.Coords) (a : Vec F S1024x1024 .f32) (dr : Vec F S1024x1 .f32) (dc : Vec F S1x1024 .f32)
    (h : Vec F S8192x512 .bf16) (s : Vec F S1024x512 .f32) : Vec F S1024x512 .f32 :=
  View.canon [⟨rBlk, k1_pay2 (View.ld a rA) (View.ld dr rDr) (View.ld dc rDc) (View.ld h (rH i)) (View.ld s rBlk)⟩]

/-- The output block after the copy-out of scratch contents `s`. -/
def gcnOut (s : Vec F S1024x512 .f32) : Vec F S1024x512 .f32 := View.canon [⟨rBlk, View.ld s rBlk⟩]

/-- One store over the whole block covers it. -/
theorem blkCover (p0 : Vec F S1024x512 .f32) (y : S1024x512.Idx) :
    ∃ pc ∈ ([⟨rBlk, p0⟩] : List (View.Piece (Elt F) S1024x512 .f32)), y ∈ pc.1.set :=
  View.cover_of_tiled [⟨rBlk, p0⟩] S1024x512.size (by rfl) y

/-- The block's zero offsets, as the constant function. -/
theorem hz2 : (![0, 0] : Fin S1024x512.rank → ℕ) = fun _ => 0 := by
  funext a; fin_cases a <;> rfl

/-- A store over the whole block, last, covers it whatever came before. -/
theorem blkCoverCons (p0 : Vec F S1024x512 .f32) (L : List (View.Piece (Elt F) S1024x512 .f32)) (y : S1024x512.Idx) :
    ∃ pc ∈ ((⟨rBlk, p0⟩ : View.Piece (Elt F) S1024x512 .f32) :: L), y ∈ pc.1.set :=
  ⟨_, List.mem_cons_self, View.mem_set_unit_zero hz2 inb_S1024x512_S1024x512_0_0 y⟩

/-- The reset leaves its payload: the zero block. -/
theorem gcnZero_eq : gcnZero (F := F) = k1_pay1 (F := F) :=
  View.canon_unit_zero (S := S1024x512) hz2 _ _

/-- One accumulation over `s` leaves the payload of the loaded operands and `s` itself. -/
theorem gcnAcc_eq (i : grid1.Coords) (a : Vec F S1024x1024 .f32) (dr : Vec F S1024x1 .f32) (dc : Vec F S1x1024 .f32)
    (h : Vec F S8192x512 .bf16) (s : Vec F S1024x512 .f32) :
    gcnAcc i a dr dc h s = k1_pay2 (View.ld a rA) (View.ld dr rDr) (View.ld dc rDc) (View.ld h (rH i)) s := by
  unfold gcnAcc
  rw [View.canon_unit_zero (S := S1024x512) hz2, View.ld_unit_zero (S := S1024x512) hz2]

/-- The copy-out of `s` is `s`. -/
theorem gcnOut_eq (s : Vec F S1024x512 .f32) : gcnOut s = s := by
  unfold gcnOut
  rw [View.canon_unit_zero (S := S1024x512) hz2, View.ld_unit_zero (S := S1024x512) hz2]

set_option maxHeartbeats 1000000 in
/-- FIRST step of a row block: whatever the scratch held, it ends at one accumulation over zero; the inputs are
    kept; the output block is not touched (it is not among the resources). -/
theorem sound_gcn_first (c : Dev nD) (E : Set ℕ) (i : grid1.Coords) (h1 : condFirst i) (h2 : ¬ condLast i)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S8192x512 .bf16) (harg5 : arg5.IsWhole)
    (arg6 : Memref sig .tc .vmem S1024x512 .f32) (harg6 : arg6.IsWhole) (arg7 : Memref sig .tc .vmem S1024x512 .f32) (harg7 : arg7.IsWhole)
    (a : Vec F S1024x1024 .f32) (dr : Vec F S1024x1 .f32) (dc : Vec F S1x1024 .f32) (h : Vec F S8192x512 .bf16) (K : PUnit → sProp 𝕄) :
    iprop(owns (c : Thread nD τ) arg2 fullShare a ∗ owns (c : Thread nD τ) arg3 fullShare dr ∗ owns (c : Thread nD τ) arg4 fullShare dc
        ∗ owns (c : Thread nD τ) arg5 fullShare h ∗ (∃ s, owns (c : Thread nD τ) arg7 fullShare s)
        ∗ (iprop(owns (c : Thread nD τ) arg2 fullShare a ∗ owns (c : Thread nD τ) arg3 fullShare dr ∗ owns (c : Thread nD τ) arg4 fullShare dc
        ∗ owns (c : Thread nD τ) arg5 fullShare h ∗ owns (c : Thread nD τ) arg7 fullShare (gcnAcc i a dr dc h (gcnZero (F := F)))) -∗ K ⟨⟩))
      ⊢ wp frame (wpE (defs₀ (F := F)) Variants.none c none) E (cc1__gcn_kernel i arg2 harg2 arg3 harg3 arg4 harg4 arg5 harg5 arg6 harg6 arg7 harg7) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%s, %f7, %hf7, H7⟩, Hk⟩
  subst hf2; subst hf3; subst hf4; subst hf5
  sl_exec (disch := first | exact h1 | exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H7
  ipureintro
  rw [View.read_writes_eq_canon _ _ _ (blkCoverCons _ _)]
  sl_unfold_words
  rw [View.canon_cons_unit_zero (S := S1024x512) hz2, View.readCov_unit_zero (S := S1024x512) _ hz2,
    gcnAcc_eq, gcnZero_eq]
  rfl

set_option maxHeartbeats 1000000 in
/-- MIDDLE step: the scratch at `s` ends at one accumulation over `s`. -/
theorem sound_gcn_mid (c : Dev nD) (E : Set ℕ) (i : grid1.Coords) (h1 : ¬ condFirst i) (h2 : ¬ condLast i)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S8192x512 .bf16) (harg5 : arg5.IsWhole)
    (arg6 : Memref sig .tc .vmem S1024x512 .f32) (harg6 : arg6.IsWhole) (arg7 : Memref sig .tc .vmem S1024x512 .f32) (harg7 : arg7.IsWhole)
    (a : Vec F S1024x1024 .f32) (dr : Vec F S1024x1 .f32) (dc : Vec F S1x1024 .f32) (h : Vec F S8192x512 .bf16) (s : Vec F S1024x512 .f32) (K : PUnit → sProp 𝕄) :
    iprop(owns (c : Thread nD τ) arg2 fullShare a ∗ owns (c : Thread nD τ) arg3 fullShare dr ∗ owns (c : Thread nD τ) arg4 fullShare dc
        ∗ owns (c : Thread nD τ) arg5 fullShare h ∗ owns (c : Thread nD τ) arg7 fullShare s
        ∗ (iprop(owns (c : Thread nD τ) arg2 fullShare a ∗ owns (c : Thread nD τ) arg3 fullShare dr ∗ owns (c : Thread nD τ) arg4 fullShare dc
        ∗ owns (c : Thread nD τ) arg5 fullShare h ∗ owns (c : Thread nD τ) arg7 fullShare (gcnAcc i a dr dc h s)) -∗ K ⟨⟩))
      ⊢ wp frame (wpE (defs₀ (F := F)) Variants.none c none) E (cc1__gcn_kernel i arg2 harg2 arg3 harg3 arg4 harg4 arg5 harg5 arg6 harg6 arg7 harg7) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f7, %hf7, H7⟩, Hk⟩
  subst hf2; subst hf3; subst hf4; subst hf5; subst hf7
  sl_exec (disch := first | exact h1 | exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H7
  ipureintro
  exact View.read_writes_eq_canon _ _ _ (blkCover _)

set_option maxHeartbeats 1000000 in
/-- LAST step: as a middle step, and the output block (at anything before) ends at the copy of the new scratch. -/
theorem sound_gcn_last (c : Dev nD) (E : Set ℕ) (i : grid1.Coords) (h1 : ¬ condFirst i) (h2 : condLast i)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S8192x512 .bf16) (harg5 : arg5.IsWhole)
    (arg6 : Memref sig .tc .vmem S1024x512 .f32) (harg6 : arg6.IsWhole) (arg7 : Memref sig .tc .vmem S1024x512 .f32) (harg7 : arg7.IsWhole)
    (a : Vec F S1024x1024 .f32) (dr : Vec F S1024x1 .f32) (dc : Vec F S1x1024 .f32) (h : Vec F S8192x512 .bf16) (s : Vec F S1024x512 .f32) (K : PUnit → sProp 𝕄) :
    iprop(owns (c : Thread nD τ) arg2 fullShare a ∗ owns (c : Thread nD τ) arg3 fullShare dr ∗ owns (c : Thread nD τ) arg4 fullShare dc
        ∗ owns (c : Thread nD τ) arg5 fullShare h ∗ owns (c : Thread nD τ) arg7 fullShare s ∗ (∃ d, owns (c : Thread nD τ) arg6 fullShare d)
        ∗ (iprop(owns (c : Thread nD τ) arg2 fullShare a ∗ owns (c : Thread nD τ) arg3 fullShare dr ∗ owns (c : Thread nD τ) arg4 fullShare dc
        ∗ owns (c : Thread nD τ) arg5 fullShare h ∗ owns (c : Thread nD τ) arg7 fullShare (gcnAcc i a dr dc h s)
            ∗ owns (c : Thread nD τ) arg6 fullShare (gcnOut (gcnAcc i a dr dc h s))) -∗ K ⟨⟩))
      ⊢ wp frame (wpE (defs₀ (F := F)) Variants.none c none) E (cc1__gcn_kernel i arg2 harg2 arg3 harg3 arg4 harg4 arg5 harg5 arg6 harg6 arg7 harg7) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f7, %hf7, H7⟩, ⟨%d, %f6, -, H6⟩, Hk⟩
  subst hf2; subst hf3; subst hf4; subst hf5; subst hf7
  sl_exec (disch := first | exact h1 | exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    sl_unfold_words
    exact View.read_writes_eq_canon _ _ _ (blkCover _)
  iexists _; isplitr
  swap; · iexact H6
  ipureintro
  rw [View.read_writes_eq_canon _ _ _ (blkCover _)]
  sl_unfold_words
  rw [View.canon_unit_zero (S := S1024x512) hz2, View.readCov_unit_zero (S := S1024x512) _ hz2,
    gcnOut_eq, gcnAcc_eq, View.readAt_eq_ld arg7.view f7, View.ld_unit_zero (S := S1024x512) hz2]
  rfl

end Cert.KernelIdeal.Hand

end
-- ==== Proof.Frame.Data.lean ====
/-
  The two kernel regions' proof data, at a PARAMETER `V`: the TensorCore's buffer contents when the region is entered.

  Region 0 (the linear layer, 8 points): every point loads its own row block of the features, the whole weight matrix
  and the whole bias, and writes its own row block of the result, so what the body leaves in the output block is
  `linOut` of the three input blocks and the invariant is the class's (nothing carried).

  Region 1 (the aggregation, 8 × 8 points, point `t = 8 r + k`): the accumulator scratch is carried from point to
  point. `sAt V c n` is what it holds after point `n`: one accumulation (`gcnAcc`) of the point's blocks over zero when
  `k = 0` and over what the point before left otherwise. The invariant before point `n + 1` holds the scratch at
  `sAt V c n`; before point 0 it is the class's (the scratch at anything). The output block is written only at `k = 7`
  (with the copy of the scratch) and is idle, handed back as found, at the other points.
-/
import proofs.«109997_j19645180412416_1_alg».proof.Proof.Frame.Body1
import proofs.«109997_j19645180412416_1_alg».proof.Proof.Gen.KernelIdeal.Points
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the arrays as found; the inputs' buffers left at their blocks, the output's at the
    linear layer of them; the class's invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => linOut (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = linOut (iblk0 V c 0 t) (iblk0 V c 1 t) (iblk0 V c 2 t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One accumulation of point `t`'s blocks over scratch contents `s`. -/
def stepAt (c : Dev nD) (t : Fin cfg1.N) (s : Vec F S1024x512 .f32) : Vec F S1024x512 .f32 :=
  gcnAcc (grid1.coords t) (iblk1 V c 0 t) (iblk1 V c 1 t) (iblk1 V c 2 t) (iblk1 V c 3 t) s

/-- THE ACCUMULATION: the scratch after point `n`. -/
def sAt (c : Dev nD) : (n : ℕ) → n < cfg1.N → Vec F S1024x512 .f32
  | 0, hn => stepAt V c ⟨0, hn⟩ (gcnZero (F := F))
  | n + 1, hn => stepAt V c ⟨n + 1, hn⟩ (if (n + 1) % 8 = 0 then gcnZero (F := F) else sAt c n (Nat.lt_of_succ_lt hn))

theorem sAt_first (c : Dev nD) (t : Fin cfg1.N) (h : t.val % 8 = 0) :
    sAt V c t.val t.isLt = stepAt V c t (gcnZero (F := F)) := by
  obtain ⟨n, hn⟩ := t
  cases n with
  | zero => rfl
  | succ n =>
    have h' : (n + 1) % 8 = 0 := h
    show sAt V c (n + 1) hn = _
    rw [sAt, if_pos h']

theorem sAt_next (c : Dev nD) (t : Fin cfg1.N) (h : t.val % 8 ≠ 0) :
    sAt V c t.val t.isLt = stepAt V c t (sAt V c (t.val - 1) (Nat.lt_of_le_of_lt (Nat.sub_le _ _) t.isLt)) := by
  obtain ⟨n, hn⟩ := t
  cases n with
  | zero => exact absurd (Nat.zero_mod 8) h
  | succ n =>
    have h' : ¬ (n + 1) % 8 = 0 := h
    show sAt V c (n + 1) hn = stepAt V c ⟨n + 1, hn⟩ (sAt V c n _)
    rw [sAt, if_neg h']

/-- The scratch operand, whole. -/
abbrev scM : Memref sig .tc .vmem S1024x512 .f32 := Memref.whole cc1_scratch0

/-- The scoped buffers region 1 does not stage, the scratch apart: region 0's staging buffers, at anything. -/
def restOf1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The class's invariant of region 1, the scratch named. -/
theorem PhiA1_eq (c : Dev nD) :
    (Pipeline.ΦA spec1 c : sProp 𝕄)
      = iprop(iprop(restOf1 c ∗ (∃ d, owns (c : Thread nD τ) scM fullShare d)) ∗ (∃ r, prngReg c r)) := by
  have h₁ : (Pipeline.ΦA spec1 c : sProp 𝕄)
      ⊢ iprop(iprop(restOf1 c ∗ (∃ d, owns (c : Thread nD τ) scM fullShare d)) ∗ (∃ r, prngReg c r)) := by
    unfold Pipeline.ΦA; rw [scopedRest1_eq]
    simp only [scM, owns_whole]
    unfold restOf1
    iintro ⟨⟨H0, H1, H2, H3, H4, H5, Hs⟩, Hr⟩
    isplitr [Hr]
    · isplitr [Hs]
      · isplitl [H0]; · iexact H0
        isplitl [H1]; · iexact H1
        isplitl [H2]; · iexact H2
        isplitl [H3]; · iexact H3
        isplitl [H4]; · iexact H4
        iexact H5
      · iexact Hs
    · iexact Hr
  have h₂ : iprop(iprop(restOf1 c ∗ (∃ d, owns (c : Thread nD τ) scM fullShare d)) ∗ (∃ r, prngReg c r))
      ⊢ (Pipeline.ΦA spec1 c : sProp 𝕄) := by
    unfold Pipeline.ΦA; rw [scopedRest1_eq]
    simp only [scM, owns_whole]
    unfold restOf1
    iintro ⟨⟨⟨H0, H1, H2, H3, H4, H5⟩, Hs⟩, Hr⟩
    isplitr [Hr]
    · isplitl [H0]; · iexact H0
      isplitl [H1]; · iexact H1
      isplitl [H2]; · iexact H2
      isplitl [H3]; · iexact H3
      isplitl [H4]; · iexact H4
      isplitl [H5]; · iexact H5
      iexact Hs
    · iexact Hr
  exact BI.equiv_iff.mp ⟨h₁, h₂⟩

/-- Region 1's invariant before position `n`: the class's before the first point; afterwards the scratch at what the
    point before left. -/
def Phi1 (c : Dev nD) : (n : ℕ) → n ≤ cfg1.N → sProp 𝕄
  | 0, _ => Pipeline.ΦA spec1 c
  | n + 1, hn => iprop(iprop(restOf1 c ∗ owns (c : Thread nD τ) scM fullShare (sAt V c n hn)) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(restOf1 c ∗ owns (c : Thread nD τ) scM fullShare (sAt V c n hn)) ∗ (∃ r, prngReg c r)) := rfl
theorem Phi1_pos (c : Dev nD) (n : ℕ) (h : n ≤ cfg1.N) (hz : n ≠ 0) :
    Phi1 V c n h = iprop(iprop(restOf1 c ∗ owns (c : Thread nD τ) scM fullShare (sAt V c (n - 1) (by omega))) ∗ (∃ r, prngReg c r)) := by
  cases n with
  | zero => exact absurd rfl hz
  | succ n => rfl

/-- Region 1's proof data: the arrays as found; the inputs' buffers left at their blocks; the output's, where it is
    written (`k = 7`), at the copy of the scratch after the point (elsewhere the window is idle and the entry is not
    consulted); the invariant `Phi1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => gcnOut (sAt V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = gcnOut (sAt V c t.val t.isLt) := by dsimp only [dat1]

/-- What the launch hands region 1 is its invariant before the first point. -/
theorem hin1 (c : Dev nD) : Pipeline.ΦA spec1 c ⊢ (dat1 V c).Φ 0 := by
  rw [show (dat1 V c).Φ 0 = Phi1 V c 0 (Nat.zero_le _) from rfl, Phi1_zero V c 0 (Nat.zero_le _) rfl]

/-- After the last point the invariant gives the class's back: the scratch's named contents are forgotten. -/
theorem hout1 (c : Dev nD) : (dat1 V c).Φ (Fin.last cfg1.N) ⊢ Pipeline.ΦA spec1 c := by
  have hN : cfg1.N ≠ 0 := by rw [show cfg1.N = grid1.N from rfl, N_1]; decide
  rw [show (dat1 V c).Φ (Fin.last cfg1.N) = Phi1 V c cfg1.N (Nat.le_refl _) from rfl,
    Phi1_pos V c cfg1.N (Nat.le_refl _) hN, PhiA1_eq]
  iintro ⟨⟨Hrest, Hs⟩, Hr⟩
  isplitr [Hr]
  · isplitl [Hrest]; · iexact Hrest
    iexists _; iexact Hs
  · iexact Hr

end Cert.KernelIdeal.Hand

end
-- ==== Proof.Frame.Entry.lean ====
/-
  What the two kernel regions find and leave, over the generated thread states.

  The generated conditional frame (Gen/KernelIdeal/Regions.lean) fixes the buffer contents between @main's items —
  core `c` holds every unscoped buffer at `Gen.V0 … Gen.V5` — up to what each region writes (its unknowns `outs`).
  Region 0 is entered at `Gen.V2` (`E0`) and leaves in `main_v30` what its pipeline's write-backs make of it (`out30`);
  region 1 is entered after the reshapes of the scaling (`E1`) and leaves in `main_v33` what its write-backs make of it
  (`out33`). `outs` names both.
-/
import proofs.«109997_j19645180412416_1_alg».proof.Proof.Frame.Data
import proofs.«109997_j19645180412416_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions find and leave -/

/-- Region 0's entry contents: the launch memory after the two host stretches before it. -/
abbrev E0 : (c : Dev nD) → (b : Ref sig .tc) → Buf (Elt F) ((c : Thread nD τ).loc b) := fun c b => Gen.V2 m c b

/-- What region 0 leaves in `main_v30`: its output window's write-backs folded over the array as found. -/
def out30 (c : Dev nD) : Buf (Elt F) ((c : Thread nD τ).loc main_v30) := (dat0 (E0 m) c).arrAt 3 cfg0.N

/-- The unknowns of the generated thread states with region 0's filled in (region 1's is not read before region 1). -/
def outsA : Gen.Outs (F := F) := fun _ r c =>
  if h : r = main_v30 then h ▸ out30 m c else m ((c : Thread nD τ).loc r)

/-- Region 1's entry contents: after region 0 and the host stretch that reshapes the scaling. -/
abbrev E1 : (c : Dev nD) → (b : Ref sig .tc) → Buf (Elt F) ((c : Thread nD τ).loc b) := fun c b => Gen.V4 m (outsA m) c b

/-- What region 1 leaves in `main_v33`. -/
def out33 (c : Dev nD) : Buf (Elt F) ((c : Thread nD τ).loc main_v33) := (dat1 (E1 m) c).arrAt 4 cfg1.N

/-- What the regions leave, both named. -/
def outs : Gen.Outs (F := F) := fun _ r c =>
  if h : r = main_v30 then h ▸ out30 m c else if h' : r = main_v33 then h' ▸ out33 m c else m ((c : Thread nD τ).loc r)

theorem outs_v30 (J : ℕ) (c : Dev nD) : outs m J main_v30 c = out30 m c := by
  unfold outs; rw [dif_pos rfl]
theorem outsA_v30 (J : ℕ) (c : Dev nD) : outsA m J main_v30 c = out30 m c := by
  unfold outsA; rw [dif_pos rfl]
theorem outs_v33 (J : ℕ) (c : Dev nD) : outs m J main_v33 c = out33 m c := by
  unfold outs; rw [dif_neg (by decide), dif_pos rfl]

/-- The thread states see only region 0's entry of the unknowns before region 1: both namings agree there. -/
theorem V3_outs (c : Dev nD) : Gen.V3 m (outs m) c = Gen.V3 m (outsA m) c := by
  unfold Gen.V3; rw [outs_v30, outsA_v30]
theorem V4_outs (c : Dev nD) : Gen.V4 m (outs m) c = Gen.V4 m (outsA m) c := by
  unfold Gen.V4; rw [V3_outs]

end Cert.KernelIdeal.Hand

end
-- ==== Proof.Frame.Oblig0.lean ====
/-
  Region 0's body obligation: at every point each input's staging buffer holds that point's block (fetched there or
  not: a window not fetched has not moved), so the linear body's triple applies; the class's invariant and the
  core's dues pass through untouched.
-/
import proofs.«109997_j19645180412416_1_alg».proof.Proof.Frame.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each input's staging buffer holds when the body runs -/

/-- The block the proof data read off window `w`'s array at point `t` is the region's own reading of it. -/
theorem blockOf0 (c : Dev nD) (w : Fin cfg0.W) (t : Fin cfg0.N) : (dat0 V c).blockOf w t = iblk0 V c w t := by
  unfold Dat.blockOf iblk0; rw [A_eq0]

/-- The features' buffer holds the point's row block: the window is fetched at every point, uncut, and the body
    leaves it as found. -/
theorem before0_0 (c : Dev nD) (t : Fin cfg0.N) (d : (cfg0.win 0).block.Idx → Elt F (cfg0.win 0).elt) :
    (dat0 V c).before 0 t d = iblk0 V c 0 t := by
  rw [(dat0 V c).before_in_eq_fetched 0 rfl (fun _ => rfl) (fun _ _ _ => rfl)
    (fun s => by rw [after0_0, blockOf0]) t d]
  unfold Dat.fetched; rw [blockOf0]; rfl

/-- The weights' buffer holds the whole matrix at every point: fetched at the first point only, its block index
    never moves, and the body leaves it as found. -/
theorem before0_1 (c : Dev nD) (t : Fin cfg0.N) (d : (cfg0.win 1).block.Idx → Elt F (cfg0.win 1).elt) :
    (dat0 V c).before 1 t d = iblk0 V c 1 t := by
  rw [(dat0 V c).before_in_eq_fetched 1 rfl (fun _ => rfl) (fun _ _ _ => rfl)
    (fun s => by rw [after0_1, blockOf0]) t d]
  unfold Dat.fetched; rw [blockOf0]; rfl

/-- The bias' buffer likewise holds the whole vector at every point. -/
theorem before0_2 (c : Dev nD) (t : Fin cfg0.N) (d : (cfg0.win 2).block.Idx → Elt F (cfg0.win 2).elt) :
    (dat0 V c).before 2 t d = iblk0 V c 2 t := by
  rw [(dat0 V c).before_in_eq_fetched 2 rfl (fun _ => rfl) (fun _ _ _ => rfl)
    (fun s => by rw [after0_2, blockOf0]) t d]
  unfold Dat.fetched; rw [blockOf0]; rfl

/-! ## The obligation at one point -/

/-- The body at point `t`, the windows one by one: the three inputs' buffers hold their blocks, so the linear
    layer's triple applies; it hands the inputs back as found and the output block at the layer of them; the
    invariant and the core's dues are the same before and after and pass through unread. -/
theorem sound_point0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := F)) Variants.none c none) Set.univ (bodyAt0 t) fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t)) := by
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_linear c Set.univ (grid0.coords t) _ _ _ _ _ _ _ _
    (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- Region 0's body obligation. -/
theorem body_obligation0 (c : Dev nD) : BodyObligation (dat0 (F := F) V c) (defs₀ (F := F)) Variants.none () Set.univ := fun t => by
  rw [bigSep_W0, bigSep_W0]
  exact sound_point0 V c t

end Cert.KernelIdeal.Hand

end
-- ==== Proof.Frame.Oblig1.lean ====
/-
  Region 1's body obligation: at every point each input's staging buffer holds that point's block (fetched there or
  not); the point's position in its row block (`k = 0`, `0 < k < 7`, `k = 7`) says which of the body's three cases
  runs; the invariant hands the body the scratch at what the point before left (at anything before the first point)
  and takes it back at this point's accumulation; the output block is handed back as found except at `k = 7`, where
  it ends at the copy of the scratch.
-/
import proofs.«109997_j19645180412416_1_alg».proof.Proof.Frame.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the inputs' staging buffers hold -/

/-- The adjacency tile's buffer holds the point's tile at every point (it is fetched at every point). -/
theorem before1_0 (c : Dev nD) (t : Fin cfg1.N) (d : (cfg1.win 0).block.Idx → Elt F (cfg1.win 0).elt) :
    (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The row scalings' buffer holds the row block's scalings at every point: fetched at `k = 0`, and through the row
    block the index does not move. -/
theorem before1_1 (c : Dev nD) (t : Fin cfg1.N) (d : (cfg1.win 1).block.Idx → Elt F (cfg1.win 1).elt) :
    (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The column scalings' buffer holds the point's scalings at every point (fetched at every point). -/
theorem before1_2 (c : Dev nD) (t : Fin cfg1.N) (d : (cfg1.win 2).block.Idx → Elt F (cfg1.win 2).elt) :
    (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- The resident feature matrix's buffer holds the whole matrix at every point: fetched once, its index constant. -/
theorem before1_3 (c : Dev nD) (t : Fin cfg1.N) (d : (cfg1.win 3).block.Idx → Elt F (cfg1.win 3).elt) :
    (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The body's branch conditions over the grid, and where the output window is idle -/

/-- The first branch is taken at the points `≡ 0 (mod 8)`: the first step of each row block. -/
theorem hcondFirst : ∀ t : Fin cfg1.N, condFirst (grid1.coords t) ↔ t.val % 8 = 0 :=
  (by decide +kernel : ∀ t : Fin grid1.N, condFirst (grid1.coords t) ↔ t.val % 8 = 0)

/-- The second branch is taken at the points `≡ 7 (mod 8)`: the last step of each row block. -/
theorem hcondLast : ∀ t : Fin cfg1.N, condLast (grid1.coords t) ↔ t.val % 8 = 7 :=
  (by decide +kernel : ∀ t : Fin grid1.N, condLast (grid1.coords t) ↔ t.val % 8 = 7)

/-- No input window is ever idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- Off the last step of a row block the output window is idle: the body stores nothing into it, -/
theorem idleAt1_4 : ∀ t : Fin cfg1.N, ¬ condLast (grid1.coords t) → cfg1.idle 4 (grid1.coords t) = true :=
  (by decide +kernel : ∀ t : Fin grid1.N, ¬ condLast (grid1.coords t) → idle1 4 (grid1.coords t) = true)
/-- and the pipeline does not write its block back; -/
theorem noFlush1_4 : ∀ t : Fin cfg1.N, ¬ condLast (grid1.coords t) → (cfg1.win 4).flush t = false :=
  (by decide +kernel : ∀ t : Fin grid1.N, ¬ condLast (grid1.coords t) → win1_4.flush t = false)
/-- at the last step it is live. -/
theorem liveAt1_4 : ∀ t : Fin cfg1.N, condLast (grid1.coords t) → cfg1.idle 4 (grid1.coords t) = false :=
  (by decide +kernel : ∀ t : Fin grid1.N, condLast (grid1.coords t) → idle1 4 (grid1.coords t) = false)

/-! ## The invariant at a point's start -/

/-- The invariant before point `t`, restated at `t.val`. -/
theorem Phi1_castSucc (c : Dev nD) (t : Fin cfg1.N) :
    (dat1 V c).Φ t.castSucc = Phi1 V c t.val (Nat.le_of_lt t.isLt) := by
  dsimp only [dat1]; simp only [Fin.coe_castSucc]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- Each input's buffer is left at its block. -/
theorem leaves1_0 (c : Dev nD) (t : Fin cfg1.N) :
    (dat1 V c).leavesExact 0 t = owns (c : Thread nD τ) (win1_0.stage (cfg1.slots t 0)) fullShare (iblk1 V c 0 t) := by
  unfold Dat.leavesExact; rw [liveAt1_0 t, after1_0]
theorem leaves1_1 (c : Dev nD) (t : Fin cfg1.N) :
    (dat1 V c).leavesExact 1 t = owns (c : Thread nD τ) (win1_1.stage (cfg1.slots t 1)) fullShare (iblk1 V c 1 t) := by
  unfold Dat.leavesExact; rw [liveAt1_1 t, after1_1]
theorem leaves1_2 (c : Dev nD) (t : Fin cfg1.N) :
    (dat1 V c).leavesExact 2 t = owns (c : Thread nD τ) (win1_2.stage (cfg1.slots t 2)) fullShare (iblk1 V c 2 t) := by
  unfold Dat.leavesExact; rw [liveAt1_2 t, after1_2]
theorem leaves1_3 (c : Dev nD) (t : Fin cfg1.N) :
    (dat1 V c).leavesExact 3 t = owns (c : Thread nD τ) (win1_3.stage (cfg1.slots t 3)) fullShare (iblk1 V c 3 t) := by
  unfold Dat.leavesExact; rw [liveAt1_3 t, after1_3]

/-- At the last step of a row block the output's buffer is left at the copy of the scratch after the point. -/
theorem leaves1_4_last (c : Dev nD) (t : Fin cfg1.N) (h : condLast (grid1.coords t)) :
    (dat1 V c).leavesExact 4 t
      = owns (c : Thread nD τ) (win1_4.stage (cfg1.slots t 4)) fullShare (gcnOut (sAt V c t.val t.isLt)) := by
  unfold Dat.leavesExact; rw [liveAt1_4 t h, after1_4]

/-- The body at any point. The inputs' buffers hold their blocks; the point's position in its row block selects the
    body's case. At a first step the scratch is handed over at anything (the class's invariant before the first
    point, what the point before left afterwards: either will do, the body resets it) and comes back at one
    accumulation over zero; at a middle or last step it is handed over at what the point before left and comes back
    at one accumulation over that. The output's buffer is handed back as found, except at a last step, where it ends
    at the copy of the new scratch. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, leaves1_3]
  have hN : t.val < 64 := lt_of_lt_of_eq t.isLt (show cfg1.N = 64 from N_1)
  by_cases h0 : t.val % 8 = 0
  · -- the first step of a row block
    have hF : condFirst (grid1.coords t) := (hcondFirst t).mpr h0
    have hL : ¬ condLast (grid1.coords t) := fun h => by have := (hcondLast t).mp h; omega
    rw [Dat.leavesExact_idle (dat1 V c) 4 t (idleAt1_4 t hL) (noFlush1_4 t hL)]
    rw [sAt_first V c t h0]; unfold stepAt
    by_cases hz : t.val = 0
    · rw [Phi1_castSucc V c t, Phi1_zero V c _ _ hz, PhiA1_eq]
      iintro ⟨⟨⟨HR, HS⟩, Hg⟩, Ho, ⟨%d0, H0⟩, ⟨%d1, H1⟩, ⟨%d2, H2⟩, ⟨%d3, H3⟩, H4⟩
      iapply (sound_gcn_first c Set.univ (grid1.coords t) hF hL _ _ _ _ _ _ _ _ _ _ _ _
        (iblk1 V c 0 t) (iblk1 V c 1 t) (iblk1 V c 2 t) (iblk1 V c 3 t) _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4
    · rw [Phi1_castSucc V c t, Phi1_pos V c _ _ hz]
      iintro ⟨⟨⟨HR, HS⟩, Hg⟩, Ho, ⟨%d0, H0⟩, ⟨%d1, H1⟩, ⟨%d2, H2⟩, ⟨%d3, H3⟩, H4⟩
      iapply (sound_gcn_first c Set.univ (grid1.coords t) hF hL _ _ _ _ _ _ _ _ _ _ _ _
        (iblk1 V c 0 t) (iblk1 V c 1 t) (iblk1 V c 2 t) (iblk1 V c 3 t) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4
  · have hF : ¬ condFirst (grid1.coords t) := fun h => h0 ((hcondFirst t).mp h)
    have hz : t.val ≠ 0 := fun h => h0 (by rw [h])
    by_cases h7 : t.val % 8 = 7
    · -- the last step of a row block
      have hL : condLast (grid1.coords t) := (hcondLast t).mpr h7
      rw [leaves1_4_last V c t hL]
      rw [sAt_next V c t h0]; unfold stepAt
      rw [Phi1_castSucc V c t, Phi1_pos V c _ _ hz]
      iintro ⟨⟨⟨HR, HS⟩, Hg⟩, Ho, ⟨%d0, H0⟩, ⟨%d1, H1⟩, ⟨%d2, H2⟩, ⟨%d3, H3⟩, ⟨%d4, H4⟩⟩
      iapply (sound_gcn_last c Set.univ (grid1.coords t) hF hL _ _ _ _ _ _ _ _ _ _ _ _
        (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [HS]; · iexact HS
      isplitl [H4]; · iexists _; iexact H4
      iintro ⟨H0, H1, H2, H3, HS, H4⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4
    · -- a middle step
      have hL : ¬ condLast (grid1.coords t) := fun h => h7 ((hcondLast t).mp h)
      rw [Dat.leavesExact_idle (dat1 V c) 4 t (idleAt1_4 t hL) (noFlush1_4 t hL)]
      rw [sAt_next V c t h0]; unfold stepAt
      rw [Phi1_castSucc V c t, Phi1_pos V c _ _ hz]
      iintro ⟨⟨⟨HR, HS⟩, Hg⟩, Ho, ⟨%d0, H0⟩, ⟨%d1, H1⟩, ⟨%d2, H2⟩, ⟨%d3, H3⟩, H4⟩
      iapply (sound_gcn_mid c Set.univ (grid1.coords t) hF hL _ _ _ _ _ _ _ _ _ _ _ _
        (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4

/-- Region 1's body obligation. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Frame.Run.lean ====
/-
  The run of @main: two kernel regions among three stretches of host operations.

  Each region's segment record splits its windows' arrays out of the unscoped buffers at entry and puts them back,
  at their final contents, at exit; the generator register rides along into the class invariant and back; nothing is
  owed. The launch then gives, at any float family: every weakly fair execution of @main terminates, the result array
  ends at `out33` and the four argument arrays end as launched.
-/
import proofs.«109997_j19645180412416_1_alg».proof.Proof.Frame.Entry
import proofs.«109997_j19645180412416_1_alg».proof.Proof.Frame.Oblig0
import proofs.«109997_j19645180412416_1_alg».proof.Proof.Frame.Oblig1
import proofs.«109997_j19645180412416_1_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides along -/

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev 𝒱₀ : Variants := Variants.none
/-- No core owes another anything: no level is assigned. -/
abbrev L : GSem nD τ sig → Finset Unit := fun _ => ∅
abbrev lv : GSem nD τ sig → Unit → ℕ := fun _ _ => 0

/-- Beside the buffers, through every item: the generator register at some state and the core owing nothing. -/
abbrev Rr (c : Dev nD) : sProp 𝕄 := iprop((∃ r, prngReg c r) ∗ ∃ W, owes (c : Thread nD τ) (0 : CellTallies nD τ sig Unit) W)
/-- The rest states of the generated chain: the same at all three. -/
abbrev Er : Fin 3 → Dev nD → sProp 𝕄 := fun _ c => Rr c

/-! ## The regions' exits: arrays at their final contents -/

/-- After region 0 every array of its windows holds what the thread state after it says: an input its entry contents
    (no write-back touches it), the output `out30`. -/
theorem hF0 (c : Dev nD) (w : Fin cfg0.W) : (pdats m 0 c).arrAt w cfg0.N = Gen.V3 m (outs m) c (Pipeline.arrRef spec0 w) := by
  match w with
  | ⟨0, _⟩ => exact ((pdats m 0 c).arrAt_in 0 rfl _).trans ((A_eq0 (E0 m) c 0).trans (Gen.V3_of m (outs m) c main_arg0 (by decide)).symm)
  | ⟨1, _⟩ => exact ((pdats m 0 c).arrAt_in 1 rfl _).trans ((A_eq0 (E0 m) c 1).trans (Gen.V3_of m (outs m) c main_arg2 (by decide)).symm)
  | ⟨2, _⟩ => exact ((pdats m 0 c).arrAt_in 2 rfl _).trans ((A_eq0 (E0 m) c 2).trans (Gen.V3_of m (outs m) c main_arg3 (by decide)).symm)
  | ⟨3, _⟩ =>
    show out30 m c = Gen.V3 m (outs m) c main_v30
    unfold Gen.V3; rw [Function.update_self, outs_v30]
/-- Off its windows' arrays region 0 changes nothing. -/
theorem hrest0 (c : Dev nD) : ∀ b : Ref sig .tc, b ∉ Finset.univ.image (Pipeline.arrRef spec0) → Gen.V3 m (outs m) c b = Gen.V2 m c b :=
  fun b hb => Gen.V3_of m (outs m) c b (fun h => hb (Finset.mem_image.mpr ⟨3, Finset.mem_univ _, (List.mem_singleton.mp h).symm⟩))
/-- After region 1: the inputs at their entry contents, the output at `out33`. -/
theorem hF1 (c : Dev nD) (w : Fin cfg1.W) : (pdats m 1 c).arrAt w cfg1.N = Gen.V5 m (outs m) c (Pipeline.arrRef spec1 w) := by
  match w with
  | ⟨0, _⟩ => exact ((pdats m 1 c).arrAt_in 0 rfl _).trans ((A_eq1 (E1 m) c 0).trans ((congrFun (V4_outs m c) _).symm.trans (Gen.V5_of m (outs m) c main_v22 (by decide)).symm))
  | ⟨1, _⟩ => exact ((pdats m 1 c).arrAt_in 1 rfl _).trans ((A_eq1 (E1 m) c 1).trans ((congrFun (V4_outs m c) _).symm.trans (Gen.V5_of m (outs m) c main_v31 (by decide)).symm))
  | ⟨2, _⟩ => exact ((pdats m 1 c).arrAt_in 2 rfl _).trans ((A_eq1 (E1 m) c 2).trans ((congrFun (V4_outs m c) _).symm.trans (Gen.V5_of m (outs m) c main_v32 (by decide)).symm))
  | ⟨3, _⟩ => exact ((pdats m 1 c).arrAt_in 3 rfl _).trans ((A_eq1 (E1 m) c 3).trans ((congrFun (V4_outs m c) _).symm.trans (Gen.V5_of m (outs m) c main_v30 (by decide)).symm))
  | ⟨4, _⟩ =>
    show out33 m c = Gen.V5 m (outs m) c main_v33
    unfold Gen.V5; rw [Function.update_self, outs_v33]
/-- Off its windows' arrays region 1 changes nothing. -/
theorem hrest1 (c : Dev nD) : ∀ b : Ref sig .tc, b ∉ Finset.univ.image (Pipeline.arrRef spec1) → Gen.V5 m (outs m) c b = Gen.V4 m (outs m) c b :=
  fun b hb => Gen.V5_of m (outs m) c b (fun h => hb (Finset.mem_image.mpr ⟨4, Finset.mem_univ _, (List.mem_singleton.mp h).symm⟩))

/-! ## The regions as segments -/

-- a library lemma stated over the pinned configuration unifies with the printed one only when unification may unfold
-- plain definitions in a metavariable's type
set_option backward.isDefEq.respectTransparency.types false in
/-- REGION 0 over the generated thread states: entered with every unscoped buffer at `Gen.V2 m`, left with them at
    `Gen.V3 m (outs m)`. At entry its windows' arrays are split out of the unscoped buffers, the rest bypassing the region; the
    generator register goes into the class invariant; at exit the arrays come back at their final contents and the
    register comes out; the core owes nothing throughout and the kernel has no semaphore of its own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V2 m c) ∗ Rr c)
  post c := iprop(StableHlo.held (c : Thread nD τ) (Pipeline.ucRefs τ sig) (Gen.V3 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (fun b => Gen.V2 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => Gen.V2 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V2 m c b) (fun b => Gen.V3 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the generated thread states: entered with every unscoped buffer at `Gen.V4 m (outs m)`, left with them at
    `Gen.V5 m (outs m)`. At entry its windows' arrays are split out of the unscoped buffers, the rest bypassing the region; the
    generator register goes into the class invariant; at exit the arrays come back at their final contents and the
    register comes out; the core owes nothing throughout and the kernel has no semaphore of its own. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (Gen.V4 m (outs m) c) ∗ Rr c)
  post c := iprop(StableHlo.held (c : Thread nD τ) (Pipeline.ucRefs τ sig) (Gen.V5 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (fun b => Gen.V4 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V4 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (E1 m) c)
    unfold Pipeline.ΦA
    iintro ⟨Hp, -, Hr⟩
    isplitl [Hr]; · iexact Hr
    iexact Hp
  hout c := by
    rw [Pipeline.ownSems0_none]
    refine (hout1 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V4 m (outs m) c b) (fun b => Gen.V5 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The last thread state has the result array at what region 1 left. -/
theorem V5_v33 (c : Dev nD) : Gen.V5 m (outs m) c main_v33 = out33 m c := by
  unfold Gen.V5; rw [Function.update_self, outs_v33]

-- the launch theorem's implicit arguments are found by unifying its conclusion with this one, which takes unfolding
-- plain definitions in a metavariable's type
set_option backward.isDefEq.respectTransparency.types false in
/-- THE RUN, at any float family: from any memory with zero counters every weakly fair execution of @main on the
    TensorCores terminates, nothing faulting; the result array `main_v33` ends at `out33` and the four argument arrays end
    as launched. @main is the generated segment list (three host stretches, the two regions' records above); the launch
    deals each core its unscoped buffers at the launch memory, the generator register and nothing owed; at the end the
    last thread state is read against the final memory. -/
theorem run_main : θ_run defs (onTc (τ := τ) (main (F := F))) ⟨m, fun _ => 0, ρ⟩ (fun r => ∀ c : Dev nD,
      r.2.mem ((c.tc : Thread nD τ).loc main_v33) = out33 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm (pdats m) () cellOf_inj emb₁ defs₀ 𝒱₀ L lv m ρ main
    (Gen.segs m (outs m) 𝒱₀ L lv Er () (pdats m) (reg0 m) (reg1 m))
    (fun c Q => by
      rewrite [main_chain c, Seg.run_eq_chain,
        show (Gen.segs m (outs m) 𝒱₀ L lv Er () (pdats m) (reg0 m) (reg1 m) c).map Seg.prog = [
          StableHlo.seq hostOps0,
          StableHlo.seq hostOps0_1,
          Prog.lift (.customCall (Pipeline.entry 0) ()),
          StableHlo.seq hostOps1,
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?hu)
    (T₀ := fun c => iprop(StableHlo.held (c : Thread nD τ) (Pipeline.ucRefs τ sig) (Gen.V0 m c) ∗ Rr c))
    (Tₙ := fun c => iprop(StableHlo.held (c : Thread nD τ) (Pipeline.ucRefs τ sig) (Gen.V5 m (outs m) c) ∗ ∃ r, prngReg c r))
    (hch := fun c => ?hch)
    (hinit := ?hinit)
    (QY := fun c s => s.mem ((c.tc : Thread nD τ).loc main_v33) = out33 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?hfin) (hQ := fun _ h => h)
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hch =>
    -- each item is entered from exactly what the item before it left; after the last region the register and the
    -- (empty) dues are set apart from the buffers
    have hlast : (reg1 m).post c ⊢ (iprop(iprop(StableHlo.held (c : Thread nD τ) (Pipeline.ucRefs τ sig) (Gen.V5 m (outs m) c) ∗ ∃ r, prngReg c r)
        ∗ ∃ W, owes (c : Thread nD τ) (0 : CellTallies nD τ sig Unit) W) : sProp 𝕄) := by
      show (iprop(StableHlo.held (c : Thread nD τ) (Pipeline.ucRefs τ sig) (Gen.V5 m (outs m) c) ∗ Rr c) : sProp 𝕄) ⊢ _
      iintro ⟨Hh, Hp, HO⟩
      isplitl [Hh Hp]
      · isplitl [Hh]; · iexact Hh
        iexact Hp
      iexact HO
    exact ⟨.rfl, .rfl, .rfl, .rfl, .rfl, hlast⟩
  case hinit =>
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  case hfin =>
    unfold StableHlo.held
    iintro ⟨⟨Hh, -⟩, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨(h (Proc.devRef .tc main_v33) (Finset.mem_filter.mpr ⟨StableHlo.devRef_mem_tcRefs main_v33, by decide⟩)).trans (V5_v33 m c),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c)⟩
    · iexact HSI

end Cert.KernelIdeal.Hand

end
-- ==== Proof.FrameBits.Body0.lean ====
/-
  The first kernel's body, once and for all buffers: the linear layer of one row block.

  On whole staging memrefs holding a block `x` of node features (1024 × 512), the whole weight matrix `w`
  (512 × 512), the bias `b` (512) and anything in the output block, the body loads the three, forms
  `x · wᵀ + b` (the product into a zero accumulator, every operand narrowed to bf16 first and the sum narrowed
  again: at the exact instance these narrowings are the identity) and stores it over the whole output block.
  So the inputs are left as found and the output block ends at ONE piece covering it, whose payload is the
  skeleton's `k0_pay1` of the three loads (`linOut`). Stated at any float family: the word-level program and
  its idealization run the same text.
-/
import proofs.«109997_j19645180412416_1_alg».proof.Proof.Gen.Kernel.Skeleton
import proofs.«109997_j19645180412416_1_alg».proof.Proof.Gen.Kernel.Launch
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole 1024 × 512 block, as the rectangle every load and store of it names. -/
abbrev rBlk : Rect S1024x512 := Rect.unit (s := S1024x512) ![0, 0] S1024x512.size inb_S1024x512_S1024x512_0_0
/-- The whole weight matrix. -/
abbrev rW : Rect S512x512 := Rect.unit (s := S512x512) ![0, 0] S512x512.size inb_S512x512_S512x512_0_0
/-- The whole bias vector. -/
abbrev rB : Rect S512 := Rect.unit (s := S512) ![0] S512.size inb_S512_S512_0

/-- What the linear body leaves in its output block: the one store's payload, `x · wᵀ + b` of the loaded
    operands, laid over the whole block. -/
def linOut (x : Vec F S1024x512 .f32) (w : Vec F S512x512 .f32) (b : Vec F S512 .f32) : Vec F S1024x512 .bf16 :=
  View.canon [⟨rBlk, k0_pay1 (View.ld x rBlk) (View.ld w rW) (View.ld b rB)⟩]

/-- The one store covers the block. -/
theorem linCover (p0 : Vec F S1024x512 .bf16) (y : S1024x512.Idx) :
    ∃ pc ∈ ([⟨rBlk, p0⟩] : List (View.Piece (Elt F) S1024x512 .bf16)), y ∈ pc.1.set :=
  View.cover_of_tiled [⟨rBlk, p0⟩] S1024x512.size (by rfl) y

set_option maxHeartbeats 1000000 in
/-- The linear body's triple: inputs kept, the output block at `linOut` of them. -/
theorem sound_linear (c : Dev nD) (E : Set ℕ) (i : grid0.Coords)
    (arg1 : Memref sig .tc .vmem S1024x512 .f32) (harg1 : arg1.IsWhole)
    (arg2 : Memref sig .tc .vmem S512x512 .f32) (harg2 : arg2.IsWhole)
    (arg3 : Memref sig .tc .vmem S512 .f32) (harg3 : arg3.IsWhole)
    (arg4 : Memref sig .tc .vmem S1024x512 .bf16) (harg4 : arg4.IsWhole)
    (x : Vec F S1024x512 .f32) (w : Vec F S512x512 .f32) (b : Vec F S512 .f32) (K : PUnit → sProp 𝕄) :
    iprop(owns (c : Thread nD τ) arg1 fullShare x ∗ owns (c : Thread nD τ) arg2 fullShare w
        ∗ owns (c : Thread nD τ) arg3 fullShare b ∗ (∃ d, owns (c : Thread nD τ) arg4 fullShare d)
        ∗ (iprop(owns (c : Thread nD τ) arg1 fullShare x ∗ owns (c : Thread nD τ) arg2 fullShare w
            ∗ owns (c : Thread nD τ) arg3 fullShare b ∗ owns (c : Thread nD τ) arg4 fullShare (linOut x w b)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (linCover _)

end Cert.Kernel.Hand

end
-- ==== Proof.FrameBits.Body1.lean ====
/-
  The second kernel's body, once and for all buffers: one step of the aggregation `out = norm · h`.

  At grid point `(r, k)` the body holds a 1024 × 1024 tile `a` of the adjacency matrix, the tile's row scalings
  `dr` (1024 × 1) and column scalings `dc` (1 × 1024), the whole feature matrix `h` (8192 × 512, resident) and an
  accumulator scratch. It forms the normalised tile `(dr · a) · dc`, multiplies it into rows `1024 k …` of `h`
  (a product into a zero accumulator) and adds the result to the scratch; at `k = 0` the scratch is first set to
  zero, and at `k = 7` the scratch is copied over the output block. Three control cases meet the 8 × 8 grid
  (`k = 0` and `k = 7` never coincide): the first step of a row block, a middle step, the last step.
  What each leaves is stated through the skeleton's payloads: `gcnZero` (the reset), `gcnAcc` (one accumulation
  over what the scratch held), `gcnOut` (the copy-out). Stated at any float family.
-/
import proofs.«109997_j19645180412416_1_alg».proof.Proof.FrameBits.Body0
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The point is the first step of its row block (`k = 0`): the body's first branch, as printed. -/
abbrev condFirst (i : grid1.Coords) : Prop :=
  (Scalar.cmpi .ne (Scalar.extui (Scalar.cmpi .eq (BitVec.ofNat 32 (i 1).val) 0#32)) 0#32) = 1#1
/-- The point is the last step of its row block (`k = 7`): the body's second branch. -/
abbrev condLast (i : grid1.Coords) : Prop := k1_cond2 i = 1#1

/-- The whole adjacency tile, the whole column of row scalings, the whole row of column scalings. -/
abbrev rA : Rect S1024x1024 := Rect.unit (s := S1024x1024) ![0, 0] S1024x1024.size inb_S1024x1024_S1024x1024_0_0
abbrev rDr : Rect S1024x1 := Rect.unit (s := S1024x1) ![0, 0] S1024x1.size inb_S1024x1_S1024x1_0_0
abbrev rDc : Rect S1x1024 := Rect.unit (s := S1x1024) ![0, 0] S1x1024.size inb_S1x1024_S1x1024_0_0
/-- Rows `1024 k … 1024 k + 1023` of the resident feature matrix at point `i = (r, k)`. -/
abbrev rH (i : grid1.Coords) : Rect S8192x512 := Rect.unit (s := S8192x512) (k1_off1 i) S1024x512.size (k1_off1_inb i)

/-- The scratch after the reset: zero everywhere. -/
def gcnZero : Vec F S1024x512 .f32 := View.canon [⟨rBlk, k1_pay1 (F := F)⟩]

/-- The scratch after one accumulation over contents `s`: `s + ((dr · a) · dc) · h[1024 k …]`. -/
def gcnAcc (i : grid1.Coords) (a : Vec F S1024x1024 .f32) (dr : Vec F S1024x1 .f32) (dc : Vec F S1x1024 .f32)
    (h : Vec F S8192x512 .bf16) (s : Vec F S1024x512 .f32) : Vec F S1024x512 .f32 :=
  View.canon [⟨rBlk, k1_pay2 (View.ld a rA) (View.ld dr rDr) (View.ld dc rDc) (View.ld h (rH i)) (View.ld s rBlk)⟩]

/-- The output block after the copy-out of scratch contents `s`. -/
def gcnOut (s : Vec F S1024x512 .f32) : Vec F S1024x512 .f32 := View.canon [⟨rBlk, View.ld s rBlk⟩]

/-- One store over the whole block covers it. -/
theorem blkCover (p0 : Vec F S1024x512 .f32) (y : S1024x512.Idx) :
    ∃ pc ∈ ([⟨rBlk, p0⟩] : List (View.Piece (Elt F) S1024x512 .f32)), y ∈ pc.1.set :=
  View.cover_of_tiled [⟨rBlk, p0⟩] S1024x512.size (by rfl) y

/-- The block's zero offsets, as the constant function. -/
theorem hz2 : (![0, 0] : Fin S1024x512.rank → ℕ) = fun _ => 0 := by
  funext a; fin_cases a <;> rfl

/-- A store over the whole block, last, covers it whatever came before. -/
theorem blkCoverCons (p0 : Vec F S1024x512 .f32) (L : List (View.Piece (Elt F) S1024x512 .f32)) (y : S1024x512.Idx) :
    ∃ pc ∈ ((⟨rBlk, p0⟩ : View.Piece (Elt F) S1024x512 .f32) :: L), y ∈ pc.1.set :=
  ⟨_, List.mem_cons_self, View.mem_set_unit_zero hz2 inb_S1024x512_S1024x512_0_0 y⟩

/-- The reset leaves its payload: the zero block. -/
theorem gcnZero_eq : gcnZero (F := F) = k1_pay1 (F := F) :=
  View.canon_unit_zero (S := S1024x512) hz2 _ _

/-- One accumulation over `s` leaves the payload of the loaded operands and `s` itself. -/
theorem gcnAcc_eq (i : grid1.Coords) (a : Vec F S1024x1024 .f32) (dr : Vec F S1024x1 .f32) (dc : Vec F S1x1024 .f32)
    (h : Vec F S8192x512 .bf16) (s : Vec F S1024x512 .f32) :
    gcnAcc i a dr dc h s = k1_pay2 (View.ld a rA) (View.ld dr rDr) (View.ld dc rDc) (View.ld h (rH i)) s := by
  unfold gcnAcc
  rw [View.canon_unit_zero (S := S1024x512) hz2, View.ld_unit_zero (S := S1024x512) hz2]

/-- The copy-out of `s` is `s`. -/
theorem gcnOut_eq (s : Vec F S1024x512 .f32) : gcnOut s = s := by
  unfold gcnOut
  rw [View.canon_unit_zero (S := S1024x512) hz2, View.ld_unit_zero (S := S1024x512) hz2]

set_option maxHeartbeats 1000000 in
/-- FIRST step of a row block: whatever the scratch held, it ends at one accumulation over zero; the inputs are
    kept; the output block is not touched (it is not among the resources). -/
theorem sound_gcn_first (c : Dev nD) (E : Set ℕ) (i : grid1.Coords) (h1 : condFirst i) (h2 : ¬ condLast i)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S8192x512 .bf16) (harg5 : arg5.IsWhole)
    (arg6 : Memref sig .tc .vmem S1024x512 .f32) (harg6 : arg6.IsWhole) (arg7 : Memref sig .tc .vmem S1024x512 .f32) (harg7 : arg7.IsWhole)
    (a : Vec F S1024x1024 .f32) (dr : Vec F S1024x1 .f32) (dc : Vec F S1x1024 .f32) (h : Vec F S8192x512 .bf16) (K : PUnit → sProp 𝕄) :
    iprop(owns (c : Thread nD τ) arg2 fullShare a ∗ owns (c : Thread nD τ) arg3 fullShare dr ∗ owns (c : Thread nD τ) arg4 fullShare dc
        ∗ owns (c : Thread nD τ) arg5 fullShare h ∗ (∃ s, owns (c : Thread nD τ) arg7 fullShare s)
        ∗ (iprop(owns (c : Thread nD τ) arg2 fullShare a ∗ owns (c : Thread nD τ) arg3 fullShare dr ∗ owns (c : Thread nD τ) arg4 fullShare dc
        ∗ owns (c : Thread nD τ) arg5 fullShare h ∗ owns (c : Thread nD τ) arg7 fullShare (gcnAcc i a dr dc h (gcnZero (F := F)))) -∗ K ⟨⟩))
      ⊢ wp frame (wpE (defs₀ (F := F)) Variants.none c none) E (cc1__gcn_kernel i arg2 harg2 arg3 harg3 arg4 harg4 arg5 harg5 arg6 harg6 arg7 harg7) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%s, %f7, %hf7, H7⟩, Hk⟩
  subst hf2; subst hf3; subst hf4; subst hf5
  sl_exec (disch := first | exact h1 | exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H7
  ipureintro
  rw [View.read_writes_eq_canon _ _ _ (blkCoverCons _ _)]
  sl_unfold_words
  rw [View.canon_cons_unit_zero (S := S1024x512) hz2, View.readCov_unit_zero (S := S1024x512) _ hz2,
    gcnAcc_eq, gcnZero_eq]
  rfl

set_option maxHeartbeats 1000000 in
/-- MIDDLE step: the scratch at `s` ends at one accumulation over `s`. -/
theorem sound_gcn_mid (c : Dev nD) (E : Set ℕ) (i : grid1.Coords) (h1 : ¬ condFirst i) (h2 : ¬ condLast i)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S8192x512 .bf16) (harg5 : arg5.IsWhole)
    (arg6 : Memref sig .tc .vmem S1024x512 .f32) (harg6 : arg6.IsWhole) (arg7 : Memref sig .tc .vmem S1024x512 .f32) (harg7 : arg7.IsWhole)
    (a : Vec F S1024x1024 .f32) (dr : Vec F S1024x1 .f32) (dc : Vec F S1x1024 .f32) (h : Vec F S8192x512 .bf16) (s : Vec F S1024x512 .f32) (K : PUnit → sProp 𝕄) :
    iprop(owns (c : Thread nD τ) arg2 fullShare a ∗ owns (c : Thread nD τ) arg3 fullShare dr ∗ owns (c : Thread nD τ) arg4 fullShare dc
        ∗ owns (c : Thread nD τ) arg5 fullShare h ∗ owns (c : Thread nD τ) arg7 fullShare s
        ∗ (iprop(owns (c : Thread nD τ) arg2 fullShare a ∗ owns (c : Thread nD τ) arg3 fullShare dr ∗ owns (c : Thread nD τ) arg4 fullShare dc
        ∗ owns (c : Thread nD τ) arg5 fullShare h ∗ owns (c : Thread nD τ) arg7 fullShare (gcnAcc i a dr dc h s)) -∗ K ⟨⟩))
      ⊢ wp frame (wpE (defs₀ (F := F)) Variants.none c none) E (cc1__gcn_kernel i arg2 harg2 arg3 harg3 arg4 harg4 arg5 harg5 arg6 harg6 arg7 harg7) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f7, %hf7, H7⟩, Hk⟩
  subst hf2; subst hf3; subst hf4; subst hf5; subst hf7
  sl_exec (disch := first | exact h1 | exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H7
  ipureintro
  exact View.read_writes_eq_canon _ _ _ (blkCover _)

set_option maxHeartbeats 1000000 in
/-- LAST step: as a middle step, and the output block (at anything before) ends at the copy of the new scratch. -/
theorem sound_gcn_last (c : Dev nD) (E : Set ℕ) (i : grid1.Coords) (h1 : ¬ condFirst i) (h2 : condLast i)
    (arg2 : Memref sig .tc .vmem S1024x1024 .f32) (harg2 : arg2.IsWhole) (arg3 : Memref sig .tc .vmem S1024x1 .f32) (harg3 : arg3.IsWhole)
    (arg4 : Memref sig .tc .vmem S1x1024 .f32) (harg4 : arg4.IsWhole) (arg5 : Memref sig .tc .vmem S8192x512 .bf16) (harg5 : arg5.IsWhole)
    (arg6 : Memref sig .tc .vmem S1024x512 .f32) (harg6 : arg6.IsWhole) (arg7 : Memref sig .tc .vmem S1024x512 .f32) (harg7 : arg7.IsWhole)
    (a : Vec F S1024x1024 .f32) (dr : Vec F S1024x1 .f32) (dc : Vec F S1x1024 .f32) (h : Vec F S8192x512 .bf16) (s : Vec F S1024x512 .f32) (K : PUnit → sProp 𝕄) :
    iprop(owns (c : Thread nD τ) arg2 fullShare a ∗ owns (c : Thread nD τ) arg3 fullShare dr ∗ owns (c : Thread nD τ) arg4 fullShare dc
        ∗ owns (c : Thread nD τ) arg5 fullShare h ∗ owns (c : Thread nD τ) arg7 fullShare s ∗ (∃ d, owns (c : Thread nD τ) arg6 fullShare d)
        ∗ (iprop(owns (c : Thread nD τ) arg2 fullShare a ∗ owns (c : Thread nD τ) arg3 fullShare dr ∗ owns (c : Thread nD τ) arg4 fullShare dc
        ∗ owns (c : Thread nD τ) arg5 fullShare h ∗ owns (c : Thread nD τ) arg7 fullShare (gcnAcc i a dr dc h s)
            ∗ owns (c : Thread nD τ) arg6 fullShare (gcnOut (gcnAcc i a dr dc h s))) -∗ K ⟨⟩))
      ⊢ wp frame (wpE (defs₀ (F := F)) Variants.none c none) E (cc1__gcn_kernel i arg2 harg2 arg3 harg3 arg4 harg4 arg5 harg5 arg6 harg6 arg7 harg7) K := by
  simp only [cc1__gcn_kernel_eq_skeleton]; unfold cc1__gcn_kernel_skel
  unfold owns
  iintro ⟨⟨%f2, %hf2, H2⟩, ⟨%f3, %hf3, H3⟩, ⟨%f4, %hf4, H4⟩, ⟨%f5, %hf5, H5⟩, ⟨%f7, %hf7, H7⟩, ⟨%d, %f6, -, H6⟩, Hk⟩
  subst hf2; subst hf3; subst hf4; subst hf5; subst hf7
  sl_exec (disch := first | exact h1 | exact h2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    sl_unfold_words
    exact View.read_writes_eq_canon _ _ _ (blkCover _)
  iexists _; isplitr
  swap; · iexact H6
  ipureintro
  rw [View.read_writes_eq_canon _ _ _ (blkCover _)]
  sl_unfold_words
  rw [View.canon_unit_zero (S := S1024x512) hz2, View.readCov_unit_zero (S := S1024x512) _ hz2,
    gcnOut_eq, gcnAcc_eq, View.readAt_eq_ld arg7.view f7, View.ld_unit_zero (S := S1024x512) hz2]
  rfl

end Cert.Kernel.Hand

end
-- ==== Proof.FrameBits.Data.lean ====
/-
  The two kernel regions' proof data, at a PARAMETER `V`: the TensorCore's buffer contents when the region is entered.

  Region 0 (the linear layer, 8 points): every point loads its own row block of the features, the whole weight matrix
  and the whole bias, and writes its own row block of the result, so what the body leaves in the output block is
  `linOut` of the three input blocks and the invariant is the class's (nothing carried).

  Region 1 (the aggregation, 8 × 8 points, point `t = 8 r + k`): the accumulator scratch is carried from point to
  point. `sAt V c n` is what it holds after point `n`: one accumulation (`gcnAcc`) of the point's blocks over zero when
  `k = 0` and over what the point before left otherwise. The invariant before point `n + 1` holds the scratch at
  `sAt V c n`; before point 0 it is the class's (the scratch at anything). The output block is written only at `k = 7`
  (with the copy of the scratch) and is idle, handed back as found, at the other points.
-/
import proofs.«109997_j19645180412416_1_alg».proof.Proof.FrameBits.Body1
import proofs.«109997_j19645180412416_1_alg».proof.Proof.Gen.Kernel.Points
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the arrays as found; the inputs' buffers left at their blocks, the output's at the
    linear layer of them; the class's invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => linOut (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = linOut (iblk0 V c 0 t) (iblk0 V c 1 t) (iblk0 V c 2 t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One accumulation of point `t`'s blocks over scratch contents `s`. -/
def stepAt (c : Dev nD) (t : Fin cfg1.N) (s : Vec F S1024x512 .f32) : Vec F S1024x512 .f32 :=
  gcnAcc (grid1.coords t) (iblk1 V c 0 t) (iblk1 V c 1 t) (iblk1 V c 2 t) (iblk1 V c 3 t) s

/-- THE ACCUMULATION: the scratch after point `n`. -/
def sAt (c : Dev nD) : (n : ℕ) → n < cfg1.N → Vec F S1024x512 .f32
  | 0, hn => stepAt V c ⟨0, hn⟩ (gcnZero (F := F))
  | n + 1, hn => stepAt V c ⟨n + 1, hn⟩ (if (n + 1) % 8 = 0 then gcnZero (F := F) else sAt c n (Nat.lt_of_succ_lt hn))

theorem sAt_first (c : Dev nD) (t : Fin cfg1.N) (h : t.val % 8 = 0) :
    sAt V c t.val t.isLt = stepAt V c t (gcnZero (F := F)) := by
  obtain ⟨n, hn⟩ := t
  cases n with
  | zero => rfl
  | succ n =>
    have h' : (n + 1) % 8 = 0 := h
    show sAt V c (n + 1) hn = _
    rw [sAt, if_pos h']

theorem sAt_next (c : Dev nD) (t : Fin cfg1.N) (h : t.val % 8 ≠ 0) :
    sAt V c t.val t.isLt = stepAt V c t (sAt V c (t.val - 1) (Nat.lt_of_le_of_lt (Nat.sub_le _ _) t.isLt)) := by
  obtain ⟨n, hn⟩ := t
  cases n with
  | zero => exact absurd (Nat.zero_mod 8) h
  | succ n =>
    have h' : ¬ (n + 1) % 8 = 0 := h
    show sAt V c (n + 1) hn = stepAt V c ⟨n + 1, hn⟩ (sAt V c n _)
    rw [sAt, if_neg h']

/-- The scratch operand, whole. -/
abbrev scM : Memref sig .tc .vmem S1024x512 .f32 := Memref.whole cc1_scratch0

/-- The scoped buffers region 1 does not stage, the scratch apart: region 0's staging buffers, at anything. -/
def restOf1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The class's invariant of region 1, the scratch named. -/
theorem PhiA1_eq (c : Dev nD) :
    (Pipeline.ΦA spec1 c : sProp 𝕄)
      = iprop(iprop(restOf1 c ∗ (∃ d, owns (c : Thread nD τ) scM fullShare d)) ∗ (∃ r, prngReg c r)) := by
  have h₁ : (Pipeline.ΦA spec1 c : sProp 𝕄)
      ⊢ iprop(iprop(restOf1 c ∗ (∃ d, owns (c : Thread nD τ) scM fullShare d)) ∗ (∃ r, prngReg c r)) := by
    unfold Pipeline.ΦA; rw [scopedRest1_eq]
    simp only [scM, owns_whole]
    unfold restOf1
    iintro ⟨⟨H0, H1, H2, H3, H4, H5, Hs⟩, Hr⟩
    isplitr [Hr]
    · isplitr [Hs]
      · isplitl [H0]; · iexact H0
        isplitl [H1]; · iexact H1
        isplitl [H2]; · iexact H2
        isplitl [H3]; · iexact H3
        isplitl [H4]; · iexact H4
        iexact H5
      · iexact Hs
    · iexact Hr
  have h₂ : iprop(iprop(restOf1 c ∗ (∃ d, owns (c : Thread nD τ) scM fullShare d)) ∗ (∃ r, prngReg c r))
      ⊢ (Pipeline.ΦA spec1 c : sProp 𝕄) := by
    unfold Pipeline.ΦA; rw [scopedRest1_eq]
    simp only [scM, owns_whole]
    unfold restOf1
    iintro ⟨⟨⟨H0, H1, H2, H3, H4, H5⟩, Hs⟩, Hr⟩
    isplitr [Hr]
    · isplitl [H0]; · iexact H0
      isplitl [H1]; · iexact H1
      isplitl [H2]; · iexact H2
      isplitl [H3]; · iexact H3
      isplitl [H4]; · iexact H4
      isplitl [H5]; · iexact H5
      iexact Hs
    · iexact Hr
  exact BI.equiv_iff.mp ⟨h₁, h₂⟩

/-- Region 1's invariant before position `n`: the class's before the first point; afterwards the scratch at what the
    point before left. -/
def Phi1 (c : Dev nD) : (n : ℕ) → n ≤ cfg1.N → sProp 𝕄
  | 0, _ => Pipeline.ΦA spec1 c
  | n + 1, hn => iprop(iprop(restOf1 c ∗ owns (c : Thread nD τ) scM fullShare (sAt V c n hn)) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(iprop(restOf1 c ∗ owns (c : Thread nD τ) scM fullShare (sAt V c n hn)) ∗ (∃ r, prngReg c r)) := rfl
theorem Phi1_pos (c : Dev nD) (n : ℕ) (h : n ≤ cfg1.N) (hz : n ≠ 0) :
    Phi1 V c n h = iprop(iprop(restOf1 c ∗ owns (c : Thread nD τ) scM fullShare (sAt V c (n - 1) (by omega))) ∗ (∃ r, prngReg c r)) := by
  cases n with
  | zero => exact absurd rfl hz
  | succ n => rfl

/-- Region 1's proof data: the arrays as found; the inputs' buffers left at their blocks; the output's, where it is
    written (`k = 7`), at the copy of the scratch after the point (elsewhere the window is idle and the entry is not
    consulted); the invariant `Phi1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => gcnOut (sAt V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = gcnOut (sAt V c t.val t.isLt) := by dsimp only [dat1]

/-- What the launch hands region 1 is its invariant before the first point. -/
theorem hin1 (c : Dev nD) : Pipeline.ΦA spec1 c ⊢ (dat1 V c).Φ 0 := by
  rw [show (dat1 V c).Φ 0 = Phi1 V c 0 (Nat.zero_le _) from rfl, Phi1_zero V c 0 (Nat.zero_le _) rfl]

/-- After the last point the invariant gives the class's back: the scratch's named contents are forgotten. -/
theorem hout1 (c : Dev nD) : (dat1 V c).Φ (Fin.last cfg1.N) ⊢ Pipeline.ΦA spec1 c := by
  have hN : cfg1.N ≠ 0 := by rw [show cfg1.N = grid1.N from rfl, N_1]; decide
  rw [show (dat1 V c).Φ (Fin.last cfg1.N) = Phi1 V c cfg1.N (Nat.le_refl _) from rfl,
    Phi1_pos V c cfg1.N (Nat.le_refl _) hN, PhiA1_eq]
  iintro ⟨⟨Hrest, Hs⟩, Hr⟩
  isplitr [Hr]
  · isplitl [Hrest]; · iexact Hrest
    iexists _; iexact Hs
  · iexact Hr

end Cert.Kernel.Hand

end
-- ==== Proof.FrameBits.Entry.lean ====
/-
  What the two kernel regions find and leave, over the generated thread states.

  The generated conditional frame (Gen/Kernel/Regions.lean) fixes the buffer contents between @main's items —
  core `c` holds every unscoped buffer at `Gen.V0 … Gen.V5` — up to what each region writes (its unknowns `outs`).
  Region 0 is entered at `Gen.V2` (`E0`) and leaves in `main_v30` what its pipeline's write-backs make of it (`out30`);
  region 1 is entered after the reshapes of the scaling (`E1`) and leaves in `main_v33` what its write-backs make of it
  (`out33`). `outs` names both.
-/
import proofs.«109997_j19645180412416_1_alg».proof.Proof.FrameBits.Data
import proofs.«109997_j19645180412416_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions find and leave -/

/-- Region 0's entry contents: the launch memory after the two host stretches before it. -/
abbrev E0 : (c : Dev nD) → (b : Ref sig .tc) → Buf (Elt F) ((c : Thread nD τ).loc b) := fun c b => Gen.V2 m c b

/-- What region 0 leaves in `main_v30`: its output window's write-backs folded over the array as found. -/
def out30 (c : Dev nD) : Buf (Elt F) ((c : Thread nD τ).loc main_v30) := (dat0 (E0 m) c).arrAt 3 cfg0.N

/-- The unknowns of the generated thread states with region 0's filled in (region 1's is not read before region 1). -/
def outsA : Gen.Outs (F := F) := fun _ r c =>
  if h : r = main_v30 then h ▸ out30 m c else m ((c : Thread nD τ).loc r)

/-- Region 1's entry contents: after region 0 and the host stretch that reshapes the scaling. -/
abbrev E1 : (c : Dev nD) → (b : Ref sig .tc) → Buf (Elt F) ((c : Thread nD τ).loc b) := fun c b => Gen.V4 m (outsA m) c b

/-- What region 1 leaves in `main_v33`. -/
def out33 (c : Dev nD) : Buf (Elt F) ((c : Thread nD τ).loc main_v33) := (dat1 (E1 m) c).arrAt 4 cfg1.N

/-- What the regions leave, both named. -/
def outs : Gen.Outs (F := F) := fun _ r c =>
  if h : r = main_v30 then h ▸ out30 m c else if h' : r = main_v33 then h' ▸ out33 m c else m ((c : Thread nD τ).loc r)

theorem outs_v30 (J : ℕ) (c : Dev nD) : outs m J main_v30 c = out30 m c := by
  unfold outs; rw [dif_pos rfl]
theorem outsA_v30 (J : ℕ) (c : Dev nD) : outsA m J main_v30 c = out30 m c := by
  unfold outsA; rw [dif_pos rfl]
theorem outs_v33 (J : ℕ) (c : Dev nD) : outs m J main_v33 c = out33 m c := by
  unfold outs; rw [dif_neg (by decide), dif_pos rfl]

/-- The thread states see only region 0's entry of the unknowns before region 1: both namings agree there. -/
theorem V3_outs (c : Dev nD) : Gen.V3 m (outs m) c = Gen.V3 m (outsA m) c := by
  unfold Gen.V3; rw [outs_v30, outsA_v30]
theorem V4_outs (c : Dev nD) : Gen.V4 m (outs m) c = Gen.V4 m (outsA m) c := by
  unfold Gen.V4; rw [V3_outs]

end Cert.Kernel.Hand

end
-- ==== Proof.FrameBits.Oblig0.lean ====
/-
  Region 0's body obligation: at every point each input's staging buffer holds that point's block (fetched there or
  not: a window not fetched has not moved), so the linear body's triple applies; the class's invariant and the
  core's dues pass through untouched.
-/
import proofs.«109997_j19645180412416_1_alg».proof.Proof.FrameBits.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each input's staging buffer holds when the body runs -/

/-- The block the proof data read off window `w`'s array at point `t` is the region's own reading of it. -/
theorem blockOf0 (c : Dev nD) (w : Fin cfg0.W) (t : Fin cfg0.N) : (dat0 V c).blockOf w t = iblk0 V c w t := by
  unfold Dat.blockOf iblk0; rw [A_eq0]

/-- The features' buffer holds the point's row block: the window is fetched at every point, uncut, and the body
    leaves it as found. -/
theorem before0_0 (c : Dev nD) (t : Fin cfg0.N) (d : (cfg0.win 0).block.Idx → Elt F (cfg0.win 0).elt) :
    (dat0 V c).before 0 t d = iblk0 V c 0 t := by
  rw [(dat0 V c).before_in_eq_fetched 0 rfl (fun _ => rfl) (fun _ _ _ => rfl)
    (fun s => by rw [after0_0, blockOf0]) t d]
  unfold Dat.fetched; rw [blockOf0]; rfl

/-- The weights' buffer holds the whole matrix at every point: fetched at the first point only, its block index
    never moves, and the body leaves it as found. -/
theorem before0_1 (c : Dev nD) (t : Fin cfg0.N) (d : (cfg0.win 1).block.Idx → Elt F (cfg0.win 1).elt) :
    (dat0 V c).before 1 t d = iblk0 V c 1 t := by
  rw [(dat0 V c).before_in_eq_fetched 1 rfl (fun _ => rfl) (fun _ _ _ => rfl)
    (fun s => by rw [after0_1, blockOf0]) t d]
  unfold Dat.fetched; rw [blockOf0]; rfl

/-- The bias' buffer likewise holds the whole vector at every point. -/
theorem before0_2 (c : Dev nD) (t : Fin cfg0.N) (d : (cfg0.win 2).block.Idx → Elt F (cfg0.win 2).elt) :
    (dat0 V c).before 2 t d = iblk0 V c 2 t := by
  rw [(dat0 V c).before_in_eq_fetched 2 rfl (fun _ => rfl) (fun _ _ _ => rfl)
    (fun s => by rw [after0_2, blockOf0]) t d]
  unfold Dat.fetched; rw [blockOf0]; rfl

/-! ## The obligation at one point -/

/-- The body at point `t`, the windows one by one: the three inputs' buffers hold their blocks, so the linear
    layer's triple applies; it hands the inputs back as found and the output block at the layer of them; the
    invariant and the core's dues are the same before and after and pass through unread. -/
theorem sound_point0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := F)) Variants.none c none) Set.univ (bodyAt0 t) fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t)) := by
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_linear c Set.univ (grid0.coords t) _ _ _ _ _ _ _ _
    (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- Region 0's body obligation. -/
theorem body_obligation0 (c : Dev nD) : BodyObligation (dat0 (F := F) V c) (defs₀ (F := F)) Variants.none () Set.univ := fun t => by
  rw [bigSep_W0, bigSep_W0]
  exact sound_point0 V c t

end Cert.Kernel.Hand

end
-- ==== Proof.FrameBits.Oblig1.lean ====
/-
  Region 1's body obligation: at every point each input's staging buffer holds that point's block (fetched there or
  not); the point's position in its row block (`k = 0`, `0 < k < 7`, `k = 7`) says which of the body's three cases
  runs; the invariant hands the body the scratch at what the point before left (at anything before the first point)
  and takes it back at this point's accumulation; the output block is handed back as found except at `k = 7`, where
  it ends at the copy of the scratch.
-/
import proofs.«109997_j19645180412416_1_alg».proof.Proof.FrameBits.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the inputs' staging buffers hold -/

/-- The adjacency tile's buffer holds the point's tile at every point (it is fetched at every point). -/
theorem before1_0 (c : Dev nD) (t : Fin cfg1.N) (d : (cfg1.win 0).block.Idx → Elt F (cfg1.win 0).elt) :
    (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- The row scalings' buffer holds the row block's scalings at every point: fetched at `k = 0`, and through the row
    block the index does not move. -/
theorem before1_1 (c : Dev nD) (t : Fin cfg1.N) (d : (cfg1.win 1).block.Idx → Elt F (cfg1.win 1).elt) :
    (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The column scalings' buffer holds the point's scalings at every point (fetched at every point). -/
theorem before1_2 (c : Dev nD) (t : Fin cfg1.N) (d : (cfg1.win 2).block.Idx → Elt F (cfg1.win 2).elt) :
    (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-- The resident feature matrix's buffer holds the whole matrix at every point: fetched once, its index constant. -/
theorem before1_3 (c : Dev nD) (t : Fin cfg1.N) (d : (cfg1.win 3).block.Idx → Elt F (cfg1.win 3).elt) :
    (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-! ## The body's branch conditions over the grid, and where the output window is idle -/

/-- The first branch is taken at the points `≡ 0 (mod 8)`: the first step of each row block. -/
theorem hcondFirst : ∀ t : Fin cfg1.N, condFirst (grid1.coords t) ↔ t.val % 8 = 0 :=
  (by decide +kernel : ∀ t : Fin grid1.N, condFirst (grid1.coords t) ↔ t.val % 8 = 0)

/-- The second branch is taken at the points `≡ 7 (mod 8)`: the last step of each row block. -/
theorem hcondLast : ∀ t : Fin cfg1.N, condLast (grid1.coords t) ↔ t.val % 8 = 7 :=
  (by decide +kernel : ∀ t : Fin grid1.N, condLast (grid1.coords t) ↔ t.val % 8 = 7)

/-- No input window is ever idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

/-- Off the last step of a row block the output window is idle: the body stores nothing into it, -/
theorem idleAt1_4 : ∀ t : Fin cfg1.N, ¬ condLast (grid1.coords t) → cfg1.idle 4 (grid1.coords t) = true :=
  (by decide +kernel : ∀ t : Fin grid1.N, ¬ condLast (grid1.coords t) → idle1 4 (grid1.coords t) = true)
/-- and the pipeline does not write its block back; -/
theorem noFlush1_4 : ∀ t : Fin cfg1.N, ¬ condLast (grid1.coords t) → (cfg1.win 4).flush t = false :=
  (by decide +kernel : ∀ t : Fin grid1.N, ¬ condLast (grid1.coords t) → win1_4.flush t = false)
/-- at the last step it is live. -/
theorem liveAt1_4 : ∀ t : Fin cfg1.N, condLast (grid1.coords t) → cfg1.idle 4 (grid1.coords t) = false :=
  (by decide +kernel : ∀ t : Fin grid1.N, condLast (grid1.coords t) → idle1 4 (grid1.coords t) = false)

/-! ## The invariant at a point's start -/

/-- The invariant before point `t`, restated at `t.val`. -/
theorem Phi1_castSucc (c : Dev nD) (t : Fin cfg1.N) :
    (dat1 V c).Φ t.castSucc = Phi1 V c t.val (Nat.le_of_lt t.isLt) := by
  dsimp only [dat1]; simp only [Fin.coe_castSucc]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- Each input's buffer is left at its block. -/
theorem leaves1_0 (c : Dev nD) (t : Fin cfg1.N) :
    (dat1 V c).leavesExact 0 t = owns (c : Thread nD τ) (win1_0.stage (cfg1.slots t 0)) fullShare (iblk1 V c 0 t) := by
  unfold Dat.leavesExact; rw [liveAt1_0 t, after1_0]
theorem leaves1_1 (c : Dev nD) (t : Fin cfg1.N) :
    (dat1 V c).leavesExact 1 t = owns (c : Thread nD τ) (win1_1.stage (cfg1.slots t 1)) fullShare (iblk1 V c 1 t) := by
  unfold Dat.leavesExact; rw [liveAt1_1 t, after1_1]
theorem leaves1_2 (c : Dev nD) (t : Fin cfg1.N) :
    (dat1 V c).leavesExact 2 t = owns (c : Thread nD τ) (win1_2.stage (cfg1.slots t 2)) fullShare (iblk1 V c 2 t) := by
  unfold Dat.leavesExact; rw [liveAt1_2 t, after1_2]
theorem leaves1_3 (c : Dev nD) (t : Fin cfg1.N) :
    (dat1 V c).leavesExact 3 t = owns (c : Thread nD τ) (win1_3.stage (cfg1.slots t 3)) fullShare (iblk1 V c 3 t) := by
  unfold Dat.leavesExact; rw [liveAt1_3 t, after1_3]

/-- At the last step of a row block the output's buffer is left at the copy of the scratch after the point. -/
theorem leaves1_4_last (c : Dev nD) (t : Fin cfg1.N) (h : condLast (grid1.coords t)) :
    (dat1 V c).leavesExact 4 t
      = owns (c : Thread nD τ) (win1_4.stage (cfg1.slots t 4)) fullShare (gcnOut (sAt V c t.val t.isLt)) := by
  unfold Dat.leavesExact; rw [liveAt1_4 t h, after1_4]

/-- The body at any point. The inputs' buffers hold their blocks; the point's position in its row block selects the
    body's case. At a first step the scratch is handed over at anything (the class's invariant before the first
    point, what the point before left afterwards: either will do, the body resets it) and comes back at one
    accumulation over zero; at a middle or last step it is handed over at what the point before left and comes back
    at one accumulation over that. The output's buffer is handed back as found, except at a last step, where it ends
    at the copy of the new scratch. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2, leaves1_3]
  have hN : t.val < 64 := lt_of_lt_of_eq t.isLt (show cfg1.N = 64 from N_1)
  by_cases h0 : t.val % 8 = 0
  · -- the first step of a row block
    have hF : condFirst (grid1.coords t) := (hcondFirst t).mpr h0
    have hL : ¬ condLast (grid1.coords t) := fun h => by have := (hcondLast t).mp h; omega
    rw [Dat.leavesExact_idle (dat1 V c) 4 t (idleAt1_4 t hL) (noFlush1_4 t hL)]
    rw [sAt_first V c t h0]; unfold stepAt
    by_cases hz : t.val = 0
    · rw [Phi1_castSucc V c t, Phi1_zero V c _ _ hz, PhiA1_eq]
      iintro ⟨⟨⟨HR, HS⟩, Hg⟩, Ho, ⟨%d0, H0⟩, ⟨%d1, H1⟩, ⟨%d2, H2⟩, ⟨%d3, H3⟩, H4⟩
      iapply (sound_gcn_first c Set.univ (grid1.coords t) hF hL _ _ _ _ _ _ _ _ _ _ _ _
        (iblk1 V c 0 t) (iblk1 V c 1 t) (iblk1 V c 2 t) (iblk1 V c 3 t) _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4
    · rw [Phi1_castSucc V c t, Phi1_pos V c _ _ hz]
      iintro ⟨⟨⟨HR, HS⟩, Hg⟩, Ho, ⟨%d0, H0⟩, ⟨%d1, H1⟩, ⟨%d2, H2⟩, ⟨%d3, H3⟩, H4⟩
      iapply (sound_gcn_first c Set.univ (grid1.coords t) hF hL _ _ _ _ _ _ _ _ _ _ _ _
        (iblk1 V c 0 t) (iblk1 V c 1 t) (iblk1 V c 2 t) (iblk1 V c 3 t) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4
  · have hF : ¬ condFirst (grid1.coords t) := fun h => h0 ((hcondFirst t).mp h)
    have hz : t.val ≠ 0 := fun h => h0 (by rw [h])
    by_cases h7 : t.val % 8 = 7
    · -- the last step of a row block
      have hL : condLast (grid1.coords t) := (hcondLast t).mpr h7
      rw [leaves1_4_last V c t hL]
      rw [sAt_next V c t h0]; unfold stepAt
      rw [Phi1_castSucc V c t, Phi1_pos V c _ _ hz]
      iintro ⟨⟨⟨HR, HS⟩, Hg⟩, Ho, ⟨%d0, H0⟩, ⟨%d1, H1⟩, ⟨%d2, H2⟩, ⟨%d3, H3⟩, ⟨%d4, H4⟩⟩
      iapply (sound_gcn_last c Set.univ (grid1.coords t) hF hL _ _ _ _ _ _ _ _ _ _ _ _
        (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [HS]; · iexact HS
      isplitl [H4]; · iexists _; iexact H4
      iintro ⟨H0, H1, H2, H3, HS, H4⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4
    · -- a middle step
      have hL : ¬ condLast (grid1.coords t) := fun h => h7 ((hcondLast t).mp h)
      rw [Dat.leavesExact_idle (dat1 V c) 4 t (idleAt1_4 t hL) (noFlush1_4 t hL)]
      rw [sAt_next V c t h0]; unfold stepAt
      rw [Phi1_castSucc V c t, Phi1_pos V c _ _ hz]
      iintro ⟨⟨⟨HR, HS⟩, Hg⟩, Ho, ⟨%d0, H0⟩, ⟨%d1, H1⟩, ⟨%d2, H2⟩, ⟨%d3, H3⟩, H4⟩
      iapply (sound_gcn_mid c Set.univ (grid1.coords t) hF hL _ _ _ _ _ _ _ _ _ _ _ _
        (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR HS]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4

/-- Region 1's body obligation. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameBits.Run.lean ====
/-
  The run of @main: two kernel regions among three stretches of host operations.

  Each region's segment record splits its windows' arrays out of the unscoped buffers at entry and puts them back,
  at their final contents, at exit; the generator register rides along into the class invariant and back; nothing is
  owed. The launch then gives, at any float family: every weakly fair execution of @main terminates, the result array
  ends at `out33` and the four argument arrays end as launched.
-/
import proofs.«109997_j19645180412416_1_alg».proof.Proof.FrameBits.Entry
import proofs.«109997_j19645180412416_1_alg».proof.Proof.FrameBits.Oblig0
import proofs.«109997_j19645180412416_1_alg».proof.Proof.FrameBits.Oblig1
import proofs.«109997_j19645180412416_1_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and what rides along -/

/-- Every pipeline's proof data, each at its region's entry contents. -/
def pdats : (p : Fin 2) → (c : Dev nD) → Dat τ (Elt F) Unit ℕ (UR sig nD τ) ℕ (cfgs p) c
  | ⟨0, _⟩ => fun c => dat0 (E0 m) c
  | ⟨1, _⟩ => fun c => dat1 (E1 m) c

abbrev 𝒱₀ : Variants := Variants.none
/-- No core owes another anything: no level is assigned. -/
abbrev L : GSem nD τ sig → Finset Unit := fun _ => ∅
abbrev lv : GSem nD τ sig → Unit → ℕ := fun _ _ => 0

/-- Beside the buffers, through every item: the generator register at some state and the core owing nothing. -/
abbrev Rr (c : Dev nD) : sProp 𝕄 := iprop((∃ r, prngReg c r) ∗ ∃ W, owes (c : Thread nD τ) (0 : CellTallies nD τ sig Unit) W)
/-- The rest states of the generated chain: the same at all three. -/
abbrev Er : Fin 3 → Dev nD → sProp 𝕄 := fun _ c => Rr c

/-! ## The regions' exits: arrays at their final contents -/

/-- After region 0 every array of its windows holds what the thread state after it says: an input its entry contents
    (no write-back touches it), the output `out30`. -/
theorem hF0 (c : Dev nD) (w : Fin cfg0.W) : (pdats m 0 c).arrAt w cfg0.N = Gen.V3 m (outs m) c (Pipeline.arrRef spec0 w) := by
  match w with
  | ⟨0, _⟩ => exact ((pdats m 0 c).arrAt_in 0 rfl _).trans ((A_eq0 (E0 m) c 0).trans (Gen.V3_of m (outs m) c main_arg0 (by decide)).symm)
  | ⟨1, _⟩ => exact ((pdats m 0 c).arrAt_in 1 rfl _).trans ((A_eq0 (E0 m) c 1).trans (Gen.V3_of m (outs m) c main_arg2 (by decide)).symm)
  | ⟨2, _⟩ => exact ((pdats m 0 c).arrAt_in 2 rfl _).trans ((A_eq0 (E0 m) c 2).trans (Gen.V3_of m (outs m) c main_arg3 (by decide)).symm)
  | ⟨3, _⟩ =>
    show out30 m c = Gen.V3 m (outs m) c main_v30
    unfold Gen.V3; rw [Function.update_self, outs_v30]
/-- Off its windows' arrays region 0 changes nothing. -/
theorem hrest0 (c : Dev nD) : ∀ b : Ref sig .tc, b ∉ Finset.univ.image (Pipeline.arrRef spec0) → Gen.V3 m (outs m) c b = Gen.V2 m c b :=
  fun b hb => Gen.V3_of m (outs m) c b (fun h => hb (Finset.mem_image.mpr ⟨3, Finset.mem_univ _, (List.mem_singleton.mp h).symm⟩))
/-- After region 1: the inputs at their entry contents, the output at `out33`. -/
theorem hF1 (c : Dev nD) (w : Fin cfg1.W) : (pdats m 1 c).arrAt w cfg1.N = Gen.V5 m (outs m) c (Pipeline.arrRef spec1 w) := by
  match w with
  | ⟨0, _⟩ => exact ((pdats m 1 c).arrAt_in 0 rfl _).trans ((A_eq1 (E1 m) c 0).trans ((congrFun (V4_outs m c) _).symm.trans (Gen.V5_of m (outs m) c main_v22 (by decide)).symm))
  | ⟨1, _⟩ => exact ((pdats m 1 c).arrAt_in 1 rfl _).trans ((A_eq1 (E1 m) c 1).trans ((congrFun (V4_outs m c) _).symm.trans (Gen.V5_of m (outs m) c main_v31 (by decide)).symm))
  | ⟨2, _⟩ => exact ((pdats m 1 c).arrAt_in 2 rfl _).trans ((A_eq1 (E1 m) c 2).trans ((congrFun (V4_outs m c) _).symm.trans (Gen.V5_of m (outs m) c main_v32 (by decide)).symm))
  | ⟨3, _⟩ => exact ((pdats m 1 c).arrAt_in 3 rfl _).trans ((A_eq1 (E1 m) c 3).trans ((congrFun (V4_outs m c) _).symm.trans (Gen.V5_of m (outs m) c main_v30 (by decide)).symm))
  | ⟨4, _⟩ =>
    show out33 m c = Gen.V5 m (outs m) c main_v33
    unfold Gen.V5; rw [Function.update_self, outs_v33]
/-- Off its windows' arrays region 1 changes nothing. -/
theorem hrest1 (c : Dev nD) : ∀ b : Ref sig .tc, b ∉ Finset.univ.image (Pipeline.arrRef spec1) → Gen.V5 m (outs m) c b = Gen.V4 m (outs m) c b :=
  fun b hb => Gen.V5_of m (outs m) c b (fun h => hb (Finset.mem_image.mpr ⟨4, Finset.mem_univ _, (List.mem_singleton.mp h).symm⟩))

/-! ## The regions as segments -/

-- a library lemma stated over the pinned configuration unifies with the printed one only when unification may unfold
-- plain definitions in a metavariable's type
set_option backward.isDefEq.respectTransparency.types false in
/-- REGION 0 over the generated thread states: entered with every unscoped buffer at `Gen.V2 m`, left with them at
    `Gen.V3 m (outs m)`. At entry its windows' arrays are split out of the unscoped buffers, the rest bypassing the region; the
    generator register goes into the class invariant; at exit the arrays come back at their final contents and the
    register comes out; the core owes nothing throughout and the kernel has no semaphore of its own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (Gen.V2 m c) ∗ Rr c)
  post c := iprop(StableHlo.held (c : Thread nD τ) (Pipeline.ucRefs τ sig) (Gen.V3 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (fun b => Gen.V2 m c b)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (fun b => Gen.V2 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (fun b => Gen.V2 m c b) (fun b => Gen.V3 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the generated thread states: entered with every unscoped buffer at `Gen.V4 m (outs m)`, left with them at
    `Gen.V5 m (outs m)`. At entry its windows' arrays are split out of the unscoped buffers, the rest bypassing the region; the
    generator register goes into the class invariant; at exit the arrays come back at their final contents and the
    register comes out; the core owes nothing throughout and the kernel has no semaphore of its own. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (Gen.V4 m (outs m) c) ∗ Rr c)
  post c := iprop(StableHlo.held (c : Thread nD τ) (Pipeline.ucRefs τ sig) (Gen.V5 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (fun b => Gen.V4 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (fun b => Gen.V4 m (outs m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (E1 m) c)
    unfold Pipeline.ΦA
    iintro ⟨Hp, -, Hr⟩
    isplitl [Hr]; · iexact Hr
    iexact Hp
  hout c := by
    rw [Pipeline.ownSems0_none]
    refine (hout1 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (fun b => Gen.V4 m (outs m) c b) (fun b => Gen.V5 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The last thread state has the result array at what region 1 left. -/
theorem V5_v33 (c : Dev nD) : Gen.V5 m (outs m) c main_v33 = out33 m c := by
  unfold Gen.V5; rw [Function.update_self, outs_v33]

-- the launch theorem's implicit arguments are found by unifying its conclusion with this one, which takes unfolding
-- plain definitions in a metavariable's type
set_option backward.isDefEq.respectTransparency.types false in
/-- THE RUN, at any float family: from any memory with zero counters every weakly fair execution of @main on the
    TensorCores terminates, nothing faulting; the result array `main_v33` ends at `out33` and the four argument arrays end
    as launched. @main is the generated segment list (three host stretches, the two regions' records above); the launch
    deals each core its unscoped buffers at the launch memory, the generator register and nothing owed; at the end the
    last thread state is read against the final memory. -/
theorem run_main : θ_run defs (onTc (τ := τ) (main (F := F))) ⟨m, fun _ => 0, ρ⟩ (fun r => ∀ c : Dev nD,
      r.2.mem ((c.tc : Thread nD τ).loc main_v33) = out33 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm (pdats m) () cellOf_inj emb₁ defs₀ 𝒱₀ L lv m ρ main
    (Gen.segs m (outs m) 𝒱₀ L lv Er () (pdats m) (reg0 m) (reg1 m))
    (fun c Q => by
      rewrite [main_chain c, Seg.run_eq_chain,
        show (Gen.segs m (outs m) 𝒱₀ L lv Er () (pdats m) (reg0 m) (reg1 m) c).map Seg.prog = [
          StableHlo.seq hostOps0,
          StableHlo.seq hostOps0_1,
          Prog.lift (.customCall (Pipeline.entry 0) ()),
          StableHlo.seq hostOps1,
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?hu)
    (T₀ := fun c => iprop(StableHlo.held (c : Thread nD τ) (Pipeline.ucRefs τ sig) (Gen.V0 m c) ∗ Rr c))
    (Tₙ := fun c => iprop(StableHlo.held (c : Thread nD τ) (Pipeline.ucRefs τ sig) (Gen.V5 m (outs m) c) ∗ ∃ r, prngReg c r))
    (hch := fun c => ?hch)
    (hinit := ?hinit)
    (QY := fun c s => s.mem ((c.tc : Thread nD τ).loc main_v33) = out33 m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?hfin) (hQ := fun _ h => h)
  case hu =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case hch =>
    -- each item is entered from exactly what the item before it left; after the last region the register and the
    -- (empty) dues are set apart from the buffers
    have hlast : (reg1 m).post c ⊢ (iprop(iprop(StableHlo.held (c : Thread nD τ) (Pipeline.ucRefs τ sig) (Gen.V5 m (outs m) c) ∗ ∃ r, prngReg c r)
        ∗ ∃ W, owes (c : Thread nD τ) (0 : CellTallies nD τ sig Unit) W) : sProp 𝕄) := by
      show (iprop(StableHlo.held (c : Thread nD τ) (Pipeline.ucRefs τ sig) (Gen.V5 m (outs m) c) ∗ Rr c) : sProp 𝕄) ⊢ _
      iintro ⟨Hh, Hp, HO⟩
      isplitl [Hh Hp]
      · isplitl [Hh]; · iexact Hh
        iexact Hp
      iexact HO
    exact ⟨.rfl, .rfl, .rfl, .rfl, .rfl, hlast⟩
  case hinit =>
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  case hfin =>
    unfold StableHlo.held
    iintro ⟨⟨Hh, -⟩, HSI⟩
    ihave Hr := (pointsTo_read_all (Pipeline.ucRefs τ sig) (fun b => ((c : Thread nD τ).1, b)) (Gen.V5 m (outs m) c) s') $$ [Hh HSI]
    · isplitl [Hh] <;> iassumption
    icases Hr with ⟨%h, HSI⟩
    imodintro
    isplitr
    · ipureintro
      exact ⟨(h (Proc.devRef .tc main_v33) (Finset.mem_filter.mpr ⟨StableHlo.devRef_mem_tcRefs main_v33, by decide⟩)).trans (V5_v33 m c),
        (h (Proc.devRef .tc main_arg0) (Finset.mem_filter.mpr ⟨StableHlo.devRef_mem_tcRefs main_arg0, by decide⟩)).trans (Gen.V5_main_arg0 m (outs m) c),
        (h (Proc.devRef .tc main_arg1) (Finset.mem_filter.mpr ⟨StableHlo.devRef_mem_tcRefs main_arg1, by decide⟩)).trans (Gen.V5_main_arg1 m (outs m) c),
        (h (Proc.devRef .tc main_arg2) (Finset.mem_filter.mpr ⟨StableHlo.devRef_mem_tcRefs main_arg2, by decide⟩)).trans (Gen.V5_main_arg2 m (outs m) c),
        (h (Proc.devRef .tc main_arg3) (Finset.mem_filter.mpr ⟨StableHlo.devRef_mem_tcRefs main_arg3, by decide⟩)).trans (Gen.V5_main_arg3 m (outs m) c)⟩
    · iexact HSI

end Cert.Kernel.Hand

end
-- ==== Proof.Spec.lean ====
/-
  The mathematics of the claim, over plain index types: a graph-convolution layer.

  `lin x w b` is the linear layer `h = x · wᵀ + b` (8192 nodes, 512 channels). `agg adj dr dc h` is the
  aggregation `out[p, q] = Σₖ ((dr p · adj p k) · dc k) · h k q` over all 8192 nodes `k`, every product grouped as both
  programs group it. The kernel does not form the sum at once: it cuts `k` into eight blocks of 1024 (`blkIdx`),
  sums each block (`part`) and adds the block sums one after the other onto zero (`acc`). Addition of extended reals
  is commutative and associative (they form an additive commutative monoid: `⊥ + ⊤ = ⊥` does no harm to that), so
  the running sum after the last block is the whole sum (`agg_eq_acc`): no finiteness is needed anywhere.
-/
import Idealize.ShloMosaic.PureOps.Ideal
import Mathlib.Algebra.BigOperators.Fin
import Mathlib.Algebra.BigOperators.Group.Finset.Defs
import Mathlib.Data.Fintype.BigOperators
import Mathlib.Logic.Equiv.Fin.Basic

noncomputable section

namespace Cert.Spec

open Finset

/-- The linear layer: `h[j, q] = Σₗ x[j, l] · w[q, l] + b[q]`. -/
def lin (x : Fin 8192 → Fin 512 → EReal) (w : Fin 512 → Fin 512 → EReal) (b : Fin 512 → EReal)
    (j : Fin 8192) (q : Fin 512) : EReal :=
  (∑ l : Fin 512, x j l * w q l) + b q

/-- One term of the aggregation: node `k`'s contribution to output `(p, q)`. -/
def term (adj : Fin 8192 → Fin 8192 → EReal) (dr dc : Fin 8192 → EReal) (h : Fin 8192 → Fin 512 → EReal)
    (p : Fin 8192) (q : Fin 512) (k : Fin 8192) : EReal :=
  ((dr p * adj p k) * dc k) * h k q

/-- The aggregation: the sum of the terms over all nodes. -/
def agg (adj : Fin 8192 → Fin 8192 → EReal) (dr dc : Fin 8192 → EReal) (h : Fin 8192 → Fin 512 → EReal)
    (p : Fin 8192) (q : Fin 512) : EReal :=
  ∑ k : Fin 8192, term adj dr dc h p q k

/-- Node `1024 · kb + r`: the `r`-th node of block `kb`. -/
def blkIdx (kb : Fin 8) (r : Fin 1024) : Fin 8192 := ⟨1024 * kb.val + r.val, by omega⟩

/-- Block `kb`'s share of the aggregation. -/
def part (adj : Fin 8192 → Fin 8192 → EReal) (dr dc : Fin 8192 → EReal) (h : Fin 8192 → Fin 512 → EReal)
    (p : Fin 8192) (q : Fin 512) (kb : Fin 8) : EReal :=
  ∑ r : Fin 1024, term adj dr dc h p q (blkIdx kb r)

/-- The running sum as the kernel forms it: zero, plus block 0, plus block 1, … up to block `n`. -/
def acc (g : Fin 8 → EReal) : (n : ℕ) → n < 8 → EReal
  | 0, h => 0 + g ⟨0, h⟩
  | n + 1, h => acc g n (Nat.lt_of_succ_lt h) + g ⟨n + 1, h⟩

/-- After the last block the running sum is the sum of all eight. -/
theorem acc_last (g : Fin 8 → EReal) : acc g 7 (by decide) = ∑ kb : Fin 8, g kb := by
  -- Unfold the eight steps; both sides are the same eight summands, regrouped by associativity.
  simp [acc, Fin.sum_univ_eight, add_assoc]

/-- Summing block by block is summing over all nodes. -/
theorem sum_blocks (f : Fin 8192 → EReal) : ∑ kb : Fin 8, ∑ r : Fin 1024, f (blkIdx kb r) = ∑ k : Fin 8192, f k := by
  -- The double sum is a sum over pairs (kb, r); the pairs correspond one to one to the nodes by
  -- (kb, r) ↦ r + 1024 · kb, which is the node `blkIdx kb r`.
  rw [← Fintype.sum_prod_type' (fun (kb : Fin 8) (r : Fin 1024) => f (blkIdx kb r))]
  refine Fintype.sum_equiv (finProdFinEquiv (m := 8) (n := 1024)) _ _ ?_
  rintro ⟨kb, r⟩
  congr 1
  exact Fin.ext (by show 1024 * kb.val + r.val = r.val + 1024 * kb.val; omega)

/-- The kernel's running sum after the last block is the aggregation. -/
theorem agg_eq_acc (adj : Fin 8192 → Fin 8192 → EReal) (dr dc : Fin 8192 → EReal) (h : Fin 8192 → Fin 512 → EReal)
    (p : Fin 8192) (q : Fin 512) :
    acc (part adj dr dc h p q) 7 (by decide) = agg adj dr dc h p q := by
  rw [acc_last]; exact sum_blocks (term adj dr dc h p q)

end Cert.Spec

end
-- ==== Proof.Value0.lean ====
/-
  Region 0's result, at the exact instance: after its eight points the array the linear kernel writes holds the
  specification's linear layer of the three arrays it reads, entry by entry. Point `t` writes row block `t` (rows
  `1024 t … 1024 t + 1023`), whose entry `(r, q)` is the body's payload there: the product of row `1024 t + r` of the
  features with row `q` of the weights (the matrix unit's product into a zero accumulator is the plain sum; the
  narrowings to bf16 are the identity on extended reals) plus the bias at `q`. The eight row blocks cover the array.
-/
import proofs.«109997_j19645180412416_1_alg».proof.Proof.Frame.Data
import proofs.«109997_j19645180412416_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

namespace Lin0

/-! ## The body's product at an entry

The matrix unit contracts axis 1 of the left operand (1024 × 512) with axis 0 of the right one (512 × 512): at output
entry `(r, q)` and contraction position `l` it reads the left operand at `(r, l)` and the right one at `(l, q)`. -/

theorem lhs_lin_0 (i : S1024x512.Idx) (k : dot_S1024x512_S512x512_S1024x512_1_0_0_1_n_n.contr.Idx) :
    (dot_S1024x512_S512x512_S1024x512_1_0_0_1_n_n.lhsIdx i k 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_lin_1 (i : S1024x512.Idx) (k : dot_S1024x512_S512x512_S1024x512_1_0_0_1_n_n.contr.Idx) :
    (dot_S1024x512_S512x512_S1024x512_1_0_0_1_n_n.lhsIdx i k 1).val = (k ⟨0, by decide⟩).val :=
  dot_S1024x512_S512x512_S1024x512_1_0_0_1_n_n.lhsIdx_val_of_single rfl i k
theorem rhs_lin_0 (i : S1024x512.Idx) (k : dot_S1024x512_S512x512_S1024x512_1_0_0_1_n_n.contr.Idx) :
    (dot_S1024x512_S512x512_S1024x512_1_0_0_1_n_n.rhsIdx i k 0).val = (k ⟨0, by decide⟩).val :=
  dot_S1024x512_S512x512_S1024x512_1_0_0_1_n_n.rhsIdx_val_of_single rfl i k
theorem rhs_lin_1 (i : S1024x512.Idx) (k : dot_S1024x512_S512x512_S1024x512_1_0_0_1_n_n.contr.Idx) :
    (dot_S1024x512_S512x512_S1024x512_1_0_0_1_n_n.rhsIdx i k 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product into a zero accumulator, at entry `(r, q)`: the plain sum over the 512 contraction positions. -/
theorem matmul_lin_apply (a : FVec Ideal S1024x512 .bf16) (b : FVec Ideal S512x512 .bf16) (r : Fin 1024) (q : Fin 512) :
    (matmul (F := Ideal) dot_S1024x512_S512x512_S1024x512_1_0_0_1_n_n none a b (constant (F := Ideal) S1024x512 .f32 0x00000000#32) : S1024x512.Idx → EReal) (ix2 r q)
      = ∑ l : Fin 512, (a (ix2 r l) : EReal) * (b (ix2 l q) : EReal) := by
  simp only [matmul]
  rw [Ideal.matmul_constant_zero_apply, ← Equiv.sum_comp (contrEquiv1 dot_S1024x512_S512x512_S1024x512_1_0_0_1_n_n 512 rfl rfl).symm]
  refine Finset.sum_congr rfl fun l _ => ?_
  have hl := contrEquiv1_symm_val dot_S1024x512_S512x512_S1024x512_1_0_0_1_n_n 512 rfl rfl l
  have el : dot_S1024x512_S512x512_S1024x512_1_0_0_1_n_n.lhsIdx (ix2 r q) ((contrEquiv1 dot_S1024x512_S512x512_S1024x512_1_0_0_1_n_n 512 rfl rfl).symm l) = ix2 r l := funext fun ax => Fin.ext (by
    match ax with
    | ⟨0, _⟩ => exact lhs_lin_0 _ _
    | ⟨1, _⟩ => exact (lhs_lin_1 _ _).trans hl)
  have er : dot_S1024x512_S512x512_S1024x512_1_0_0_1_n_n.rhsIdx (ix2 r q) ((contrEquiv1 dot_S1024x512_S512x512_S1024x512_1_0_0_1_n_n 512 rfl rfl).symm l) = ix2 l q := funext fun ax => Fin.ext (by
    match ax with
    | ⟨0, _⟩ => exact (rhs_lin_0 _ _).trans hl
    | ⟨1, _⟩ => exact rhs_lin_1 _ _)
  rw [el, er]

/-- The body's payload at entry `(r, q)` of the block: row `r` of the features against row `q` of the weights, plus the
    bias at `q`. The narrowings to bf16 are the identity on extended reals; the transposed weights read at `(l, q)` are
    the weights at `(q, l)`; the bias, cast to one row and repeated down the rows, reads at `(r, q)` as the bias at `q`. -/
theorem linPay_apply (x : Vec Ideal S1024x512 .f32) (w : Vec Ideal S512x512 .f32) (b : Vec Ideal S512 .f32)
    (r : Fin 1024) (q : Fin 512) :
    (k0_pay1 (F := Ideal) x w b : S1024x512.Idx → EReal) (ix2 r q)
      = (∑ l : Fin 512, (x (ix2 r l) : EReal) * (w (ix2 q l) : EReal)) + (b (ix1 q) : EReal) := by
  unfold k0_pay1
  refine (truncf_apply (ψ := .bf16) (φ := .f32) _ bitsLt_bf16_f32 (ix2 r q)).trans ?_
  refine (addf_apply _ _ (ix2 r q)).trans ?_
  refine congrArg₂ (· + ·) ?_ ?_
  · refine (matmul_lin_apply _ _ r q).trans ?_
    refine Finset.sum_congr rfl fun l _ => ?_
    refine congrArg₂ (· * ·) (truncf_apply (ψ := .bf16) (φ := .f32) x bitsLt_bf16_f32 (ix2 r l)) ?_
    refine (transpose_ix2_apply _ transposes_S512x512_p1_0_S512x512 l q).trans ?_
    exact truncf_apply (ψ := .bf16) (φ := .f32) w bitsLt_bf16_f32 (ix2 q l)
  · refine (broadcastTo_1b_ab_apply _ broadcasts_S1x512_S1024x512 r q).trans ?_
    exact shapeCast_a_1a_apply b shapeCasts_S512_S1x512 0 q

/-! ## The output block of one point -/

theorem zero2 : (![0, 0] : Fin 2 → Nat) = fun _ => 0 := funext fun a => by fin_cases a <;> rfl
theorem zero1 : (![0] : Fin 1 → Nat) = fun _ => 0 := funext fun a => by fin_cases a; rfl

/-- What the body leaves in its output block, at entry `(r, q)`: the one store covers the block, so it is the payload
    there, and the three loads read the whole staging buffers. -/
theorem linOut_apply (x : Vec Ideal S1024x512 .f32) (w : Vec Ideal S512x512 .f32) (b : Vec Ideal S512 .f32)
    (r : Fin 1024) (q : Fin 512) :
    (linOut (F := Ideal) x w b : S1024x512.Idx → EReal) (ix2 r q)
      = (∑ l : Fin 512, (x (ix2 r l) : EReal) * (w (ix2 q l) : EReal)) + (b (ix1 q) : EReal) := by
  unfold linOut
  rw [View.canon_unit_zero zero2, View.ld_unit_zero (S := S1024x512) zero2, View.ld_unit_zero (S := S512x512) zero2,
    View.ld_unit_zero (S := S512) zero1]
  exact linPay_apply x w b r q

/-- The block indices of the four windows at point `t`: the features' and the result's row block is `t`, everything else
    is block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Entry `(r, l)` of the features' block at point `t` is row `1024 t + r` of the features. -/
theorem iblk0_0_apply (c : Dev nD) (t : Fin cfg0.N) (r : Fin 1024) (l : Fin 512) (j : Fin 8192)
    (hj : j.val = 1024 * t.val + r.val) :
    (iblk0 (F := Ideal) V c 0 t : S1024x512.Idx → EReal) (ix2 r l) = (V c main_arg0 : S8192x512.Idx → EReal) (ix2 j l) := by
  obtain ⟨e0, e1, -⟩ := idx_facts0 t
  unfold iblk0
  rw [View.read_apply]
  show (V c main_arg0 : S8192x512.Idx → EReal) _ = _
  congr 1
  funext a
  apply Fin.ext
  match a with
  | ⟨0, _⟩ => show win0_0.index t (0 : Fin 2) * 1024 + 1 * r.val = j.val; rw [e0, hj]; omega
  | ⟨1, _⟩ => show win0_0.index t (1 : Fin 2) * 512 + 1 * l.val = l.val; rw [e1]; omega

/-- The weights' block is the whole matrix at every point. -/
theorem iblk0_1_apply (c : Dev nD) (t : Fin cfg0.N) (a : Fin 512) (l : Fin 512) :
    (iblk0 (F := Ideal) V c 1 t : S512x512.Idx → EReal) (ix2 a l) = (V c main_arg2 : S512x512.Idx → EReal) (ix2 a l) := by
  obtain ⟨-, -, e0, e1, -⟩ := idx_facts0 t
  unfold iblk0
  rw [View.read_apply]
  show (V c main_arg2 : S512x512.Idx → EReal) _ = _
  congr 1
  funext ax
  apply Fin.ext
  match ax with
  | ⟨0, _⟩ => show win0_1.index t (0 : Fin 2) * 512 + 1 * a.val = a.val; rw [e0]; omega
  | ⟨1, _⟩ => show win0_1.index t (1 : Fin 2) * 512 + 1 * l.val = l.val; rw [e1]; omega

/-- The bias's block is the whole vector at every point. -/
theorem iblk0_2_apply (c : Dev nD) (t : Fin cfg0.N) (a : Fin 512) :
    (iblk0 (F := Ideal) V c 2 t : S512.Idx → EReal) (ix1 a) = (V c main_arg3 : S512.Idx → EReal) (ix1 a) := by
  obtain ⟨-, -, -, -, e0, -⟩ := idx_facts0 t
  unfold iblk0
  rw [View.read_apply]
  show (V c main_arg3 : S512.Idx → EReal) _ = _
  congr 1
  funext ax
  apply Fin.ext
  match ax with
  | ⟨0, _⟩ => show win0_2.index t (0 : Fin 1) * 512 + 1 * a.val = a.val; rw [e0]; omega

/-! ## From the blocks to the array -/

/-- The linear layer of the three arrays the region reads, as one array. -/
def lin30 (c : Dev nD) : S8192x512.Idx → EReal := fun i =>
  Cert.Spec.lin (fun j l => (V c main_arg0 : S8192x512.Idx → EReal) (ix2 j l))
    (fun a l => (V c main_arg2 : S512x512.Idx → EReal) (ix2 a l))
    (fun a => (V c main_arg3 : S512.Idx → EReal) (ix1 a)) (i 0) (i 1)

/-- Entry `y` of what point `t` leaves in its output block is the linear layer at row `1024 t + y₀`, column `y₁`. -/
theorem lin_block (c : Dev nD) (t : Fin cfg0.N) (y : S1024x512.Idx) (i : S8192x512.Idx)
    (h0 : (i 0).val = 1024 * t.val + (y 0).val) (h1 : (i 1).val = (y 1).val) :
    (linOut (F := Ideal) (iblk0 V c 0 t) (iblk0 V c 1 t) (iblk0 V c 2 t) : S1024x512.Idx → EReal) y = lin30 V c i := by
  obtain ⟨r, q, rfl⟩ : ∃ (r : Fin 1024) (q : Fin 512), y = ix2 r q := ⟨y 0, y 1, eq_ix2 y⟩
  obtain ⟨j, q', rfl⟩ : ∃ (j : Fin 8192) (q' : Fin 512), i = ix2 j q' := ⟨i 0, i 1, eq_ix2 i⟩
  obtain rfl : q' = q := Fin.ext h1
  refine (linOut_apply (iblk0 V c 0 t) (iblk0 V c 1 t) (iblk0 V c 2 t) r q').trans ?_
  unfold lin30 Cert.Spec.lin
  exact congrArg₂ (· + ·)
    (Finset.sum_congr rfl fun l _ => congrArg₂ (· * ·) (iblk0_0_apply V c t r l j h0) (iblk0_1_apply V c t q' l))
    (iblk0_2_apply V c t q')

/-- What point `t` writes back is its row block of the linear layer. -/
theorem flushed30_eq (c : Dev nD) (t : Fin cfg0.N) :
    (dat0 (F := Ideal) V c).flushed 3 t = ((cfg0.win 3).blk t).view.read (Elt Ideal) (lin30 V c) := by
  obtain ⟨-, -, -, -, -, e0, e1⟩ := idx_facts0 t
  show (cfg0.win 3).cut (grid0.coords t) ((dat0 (F := Ideal) V c).after 3 t) = _
  rw [after0_3]
  funext y
  rw [View.read_apply]
  refine lin_block V c t y (((cfg0.win 3).blk t).view.emb y) ?_ ?_
  · show win0_3.index t (0 : Fin 2) * 1024 + 1 * (y 0).val = 1024 * t.val + (y 0).val; rw [e0]; omega
  · show win0_3.index t (1 : Fin 2) * 512 + 1 * (y 1).val = (y 1).val; rw [e1]; omega

/-- An entry of the array is in point `t`'s block iff each coordinate is in the block's range on its axis. -/
theorem mem_blk30 (t : Fin cfg0.N) (i : S8192x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v30).slice (win0_3.rect t)).set ↔ _
  rw [View.set_slice_whole, Rect.mem_set_unit]
  exact Iff.rfl

/-- Row `r` of the array lies in the block of point `r / 1024`, and every point writes its block back. -/
theorem cover30 (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, e0, e1⟩ := idx_facts0 t
  refine ⟨t, flush0_3 t, ?_⟩
  rw [mem_blk30]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 512 ≤ (i 1).val ∧ (i 1).val < win0_3.index t (1 : Fin 2) * 512 + 512
    rw [e1]; omega

end Lin0

/-- After region 0 its output array is the linear layer of its input arrays. -/
theorem final30 (c : Dev nD) (j : Fin 8192) (q : Fin 512) :
    ((dat0 (F := Ideal) V c).arrAt 3 cfg0.N : S8192x512.Idx → EReal) (ix2 j q)
      = Cert.Spec.lin (fun j l => (V c main_arg0 : S8192x512.Idx → EReal) (ix2 j l))
          (fun a l => (V c main_arg2 : S512x512.Idx → EReal) (ix2 a l))
          (fun a => (V c main_arg3 : S512.Idx → EReal) (ix1 a)) j q := by
  -- every point writes back its row block of the one array `lin30`, and the row blocks cover the array
  rw [(dat0 (F := Ideal) V c).arrAt_eq_of_cover 3 (Lin0.lin30 V c) (fun t _ => Lin0.flushed30_eq V c t) Lin0.cover30]
  rfl

end Cert.KernelIdeal.HandValue

end
-- ==== Proof.Value1a.lean ====
/-
  The aggregation kernel's two payloads read at an entry, at the exact instance.

  The reset's payload is the zero block. One accumulation's payload, at entry `(p, q)` of the 1024 × 512 block, is what
  the scratch held there plus the matrix unit's product into a zero accumulator, which at the exact instance is the
  plain sum over the tile's 1024 columns `k` of the normalised tile entry `(dr p · a p k) · dc k` times the feature
  entry `h k q`: the column of row scalings and the row of column scalings are broadcast over the tile, the narrowing
  to bf16 and the casts to the same shape are the identity on extended reals.
-/
import proofs.«109997_j19645180412416_1_alg».proof.Proof.Frame.Body1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx

/-- A column `[a, 1]` broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The tile product: the operand indices of the contraction, axis by axis -/

theorem lhs_gcn_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_gcn_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_gcn_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_gcn_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The matrix unit's product of a 1024 × 1024 tile with a 1024 × 512 block into a zero accumulator, at entry
    `(p, q)`: the plain sum over the tile's 1024 columns. -/
theorem gcn_matmul_apply (A : FVec Ideal S1024x1024 .bf16) (B : FVec Ideal S1024x512 .bf16) (p : Fin 1024) (q : Fin 512) :
    (matmul (F := Ideal) dot_S1024x1024_S1024x512_S1024x512_1_0_0_1_n_n none A B (constant (F := Ideal) S1024x512 .f32 0x00000000#32) : S1024x512.Idx → EReal) (ix2 p q)
      = ∑ k : Fin 1024, A (ix2 p k) * B (ix2 k q) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun a => Fin.ext (by
    match a with
    | ⟨0, _⟩ => exact lhs_gcn_0 _ _
    | ⟨1, _⟩ => exact (lhs_gcn_1 _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun a => Fin.ext (by
    match a with
    | ⟨0, _⟩ => exact (rhs_gcn_0 _ _).trans hk
    | ⟨1, _⟩ => exact rhs_gcn_1 _ _)
  rw [el, er]

/-- The reset's payload is zero at every entry. -/
theorem k1_pay1_apply (p : Fin 1024) (q : Fin 512) : ((k1_pay1 (F := Ideal)) : S1024x512.Idx → EReal) (ix2 p q) = 0 := by
  unfold k1_pay1
  refine (congrFun (shapeCast_self _ _) (ix2 p q)).trans ?_
  exact Ideal.ofBits_zero_f32

/-- One accumulation's payload at entry `(p, q)`: what the scratch held there plus the sum, over the tile's 1024 columns
    `k`, of the normalised tile entry `(dr p · a p k) · dc k` times the feature entry `h k q`. -/
theorem k1_pay2_apply (v3 : Vec Ideal S1024x1024 .f32) (v5 : Vec Ideal S1024x1 .f32) (v7 : Vec Ideal S1x1024 .f32)
    (v17 : Vec Ideal S1024x512 .bf16) (v19 : Vec Ideal S1024x512 .f32) (p : Fin 1024) (q : Fin 512) :
    (k1_pay2 v3 v5 v7 v17 v19 : S1024x512.Idx → EReal) (ix2 p q)
      = (v19 : S1024x512.Idx → EReal) (ix2 p q) + ∑ k : Fin 1024,
          (((v5 : S1024x1.Idx → EReal) (ix2 p (0 : Fin 1)) * (v3 : S1024x1024.Idx → EReal) (ix2 p k)) * (v7 : S1x1024.Idx → EReal) (ix2 (0 : Fin 1) k))
            * (v17 : S1024x512.Idx → EReal) (ix2 k q) := by
  unfold k1_pay2
  refine (congrFun (shapeCast_self _ _) (ix2 p q)).trans ?_
  refine congrArg (fun z => (v19 : S1024x512.Idx → EReal) (ix2 p q) + z) ?_
  refine (gcn_matmul_apply _ _ p q).trans ?_
  refine Finset.sum_congr rfl fun k _ => ?_
  refine congrArg₂ (fun (x y : EReal) => x * y) ?_ ?_
  · refine congrArg₂ (fun (x y : EReal) => x * y) (congrArg₂ (fun (x y : EReal) => x * y) ?_ ?_) ?_
    · refine (broadcastTo_a1_ab_apply _ _ p k).trans ?_
      exact congrFun (shapeCast_self _ _) _
    · exact congrFun (shapeCast_self _ _) _
    · refine (broadcastTo_1b_ab_apply _ _ p k).trans ?_
      exact congrFun (shapeCast_self _ _) _
  · exact congrFun (shapeCast_self _ _) _

end Cert.KernelIdeal.HandValue

end
-- ==== Proof.Value1.lean ====
/-
  Region 1's result, at the exact instance: after its 8 × 8 points the array the aggregation kernel writes holds the
  specification's aggregation of the arrays it reads. At point `8 r + k` the scratch's entry `(p, q)` is the running
  sum `Spec.acc` of the block sums `Spec.part … (1024 r + p) q` up to block `k` (by induction on `k`: the body adds
  block `k`'s product of the normalised adjacency tile with rows `1024 k …` of the features onto what the point before
  left, and onto zero at `k = 0`); at `k = 7` the copy of the scratch is written back as row block `r`, and the running
  sum after the last block is the whole sum. The eight row blocks cover the array.
-/
import proofs.«109997_j19645180412416_1_alg».proof.Proof.Frame.Data
import proofs.«109997_j19645180412416_1_alg».proof.Proof.Spec
import proofs.«109997_j19645180412416_1_alg».proof.Proof.Value1a
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The printed index maps and the grid's coordinates, decided over the 64 points: point `t` is `(t / 8, t % 8)`. -/
theorem idx_facts1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = 0
    ∧ win1_2.index t (0 : Fin 2) = 0 ∧ win1_2.index t (1 : Fin 2) = t.val % 8
    ∧ win1_3.index t (0 : Fin 2) = 0 ∧ win1_3.index t (1 : Fin 2) = 0
    ∧ win1_4.index t (0 : Fin 2) = t.val / 8 ∧ win1_4.index t (1 : Fin 2) = 0
    ∧ ((grid1.coords t) (1 : Fin 2)).val = t.val % 8 :=
  (by decide +kernel : ∀ t : Fin grid1.N, _)

/-- Window 0's block at point `t = 8 r + k` is the adjacency tile `(r, k)`: its entry `x` is the matrix's entry at row
    `1024 r + x₀` and column `1024 k + x₁`. -/
theorem iblk1_0_apply (c : Dev nD) (t : Fin cfg1.N) (x : S1024x1024.Idx) (k : S8192x8192.Idx)
    (hk0 : (k 0).val = 1024 * (t.val / 8) + (x 0).val) (hk1 : (k 1).val = 1024 * (t.val % 8) + (x 1).val) :
    (iblk1 V c 0 t : Vec Ideal S1024x1024 .f32) x = (V c main_v22 : S8192x8192.Idx → EReal) k := by
  obtain ⟨e00, e01, -⟩ := idx_facts1 t
  unfold iblk1
  rw [View.read_apply]
  show V c main_v22 _ = V c main_v22 _
  congr 1
  funext a
  apply Fin.ext
  match a with
  | ⟨0, _⟩ => show win1_0.index t 0 * 1024 + 1 * (x 0).val = (k 0).val; rw [e00, hk0]; omega
  | ⟨1, _⟩ => show win1_0.index t 1 * 1024 + 1 * (x 1).val = (k 1).val; rw [e01, hk1]; omega

/-- Window 1's block at point `t = 8 r + k` is rows `1024 r …` of the column of row scalings. -/
theorem iblk1_1_apply (c : Dev nD) (t : Fin cfg1.N) (x : S1024x1.Idx) (k : S8192x1.Idx)
    (hk0 : (k 0).val = 1024 * (t.val / 8) + (x 0).val) (hk1 : (k 1).val = (x 1).val) :
    (iblk1 V c 1 t : Vec Ideal S1024x1 .f32) x = (V c main_v31 : S8192x1.Idx → EReal) k := by
  obtain ⟨-, -, e10, e11, -⟩ := idx_facts1 t
  unfold iblk1
  rw [View.read_apply]
  show V c main_v31 _ = V c main_v31 _
  congr 1
  funext a
  apply Fin.ext
  match a with
  | ⟨0, _⟩ => show win1_1.index t 0 * 1024 + 1 * (x 0).val = (k 0).val; rw [e10, hk0]; omega
  | ⟨1, _⟩ => show win1_1.index t 1 * 1 + 1 * (x 1).val = (k 1).val; rw [e11, hk1]; omega

/-- Window 2's block at point `t = 8 r + k` is columns `1024 k …` of the row of column scalings. -/
theorem iblk1_2_apply (c : Dev nD) (t : Fin cfg1.N) (x : S1x1024.Idx) (k : S1x8192.Idx)
    (hk0 : (k 0).val = (x 0).val) (hk1 : (k 1).val = 1024 * (t.val % 8) + (x 1).val) :
    (iblk1 V c 2 t : Vec Ideal S1x1024 .f32) x = (V c main_v32 : S1x8192.Idx → EReal) k := by
  obtain ⟨-, -, -, -, e20, e21, -⟩ := idx_facts1 t
  unfold iblk1
  rw [View.read_apply]
  show V c main_v32 _ = V c main_v32 _
  congr 1
  funext a
  apply Fin.ext
  match a with
  | ⟨0, _⟩ => show win1_2.index t 0 * 1 + 1 * (x 0).val = (k 0).val; rw [e20, hk0]; omega
  | ⟨1, _⟩ => show win1_2.index t 1 * 1024 + 1 * (x 1).val = (k 1).val; rw [e21, hk1]; omega

/-- Window 3's block is the whole feature matrix at every point. -/
theorem iblk1_3_apply (c : Dev nD) (t : Fin cfg1.N) (x : S8192x512.Idx) (k : S8192x512.Idx)
    (hk0 : (k 0).val = (x 0).val) (hk1 : (k 1).val = (x 1).val) :
    (iblk1 V c 3 t : Vec Ideal S8192x512 .bf16) x = (V c main_v30 : S8192x512.Idx → EReal) k := by
  obtain ⟨-, -, -, -, -, -, e30, e31, -⟩ := idx_facts1 t
  unfold iblk1
  rw [View.read_apply]
  show V c main_v30 _ = V c main_v30 _
  congr 1
  funext a
  apply Fin.ext
  match a with
  | ⟨0, _⟩ => show win1_3.index t 0 * 8192 + 1 * (x 0).val = (k 0).val; rw [e30, hk0]; omega
  | ⟨1, _⟩ => show win1_3.index t 1 * 512 + 1 * (x 1).val = (k 1).val; rw [e31, hk1]; omega

/-- One accumulation over `s` at entry `(p, q)`, over any tile, scalings, features and scratch. -/
theorem gcnAcc_apply (i : grid1.Coords) (a : Vec Ideal S1024x1024 .f32) (dr : Vec Ideal S1024x1 .f32) (dc : Vec Ideal S1x1024 .f32)
    (h : Vec Ideal S8192x512 .bf16) (s : Vec Ideal S1024x512 .f32) (p : Fin 1024) (q : Fin 512) :
    (gcnAcc i a dr dc h s : S1024x512.Idx → EReal) (ix2 p q)
      = (s : S1024x512.Idx → EReal) (ix2 p q) + ∑ k : Fin 1024,
          (((dr : S1024x1.Idx → EReal) (ix2 p (0 : Fin 1)) * (a : S1024x1024.Idx → EReal) (ix2 p k)) * (dc : S1x1024.Idx → EReal) (ix2 (0 : Fin 1) k))
            * (h : S8192x512.Idx → EReal) ((rH i).idx (ix2 k q)) := by
  rw [gcnAcc_eq]
  refine (k1_pay2_apply _ _ _ _ _ p q).trans ?_
  rw [View.ld_unit_zero (S := S1024x1024) hz2, View.ld_unit_zero (S := S1024x1) hz2, View.ld_unit_zero (S := S1x1024) hz2]

/-! ## The specification's arguments: the four arrays the region reads, entry by entry -/

/-- The adjacency matrix. -/
abbrev adjOf (c : Dev nD) : Fin 8192 → Fin 8192 → EReal := fun p k => (V c main_v22 : S8192x8192.Idx → EReal) (ix2 p k)
/-- The scaling as a column. -/
abbrev drOf (c : Dev nD) : Fin 8192 → EReal := fun p => (V c main_v31 : S8192x1.Idx → EReal) (ix2 p (0 : Fin 1))
/-- The scaling as a row. -/
abbrev dcOf (c : Dev nD) : Fin 8192 → EReal := fun k => (V c main_v32 : S1x8192.Idx → EReal) (ix2 (0 : Fin 1) k)
/-- The features. -/
abbrev hOf (c : Dev nD) : Fin 8192 → Fin 512 → EReal := fun k q => (V c main_v30 : S8192x512.Idx → EReal) (ix2 k q)

/-- One accumulation at point `t = 8 r + kb` adds, at entry `(p, q)`, block `kb`'s share of the aggregation at row
    `1024 r + p` onto what the scratch held. -/
theorem stepAt_apply (c : Dev nD) (t : Fin cfg1.N) (r kb : Fin 8) (ht : t.val = 8 * r.val + kb.val)
    (s : Vec Ideal S1024x512 .f32) (p : Fin 1024) (q : Fin 512) :
    (stepAt V c t s : S1024x512.Idx → EReal) (ix2 p q)
      = (s : S1024x512.Idx → EReal) (ix2 p q)
        + Cert.Spec.part (adjOf V c) (drOf V c) (dcOf V c) (hOf V c) ⟨1024 * r.val + p.val, by omega⟩ q kb := by
  have hr : t.val / 8 = r.val := by omega
  have hkb : t.val % 8 = kb.val := by omega
  unfold stepAt
  refine (gcnAcc_apply (grid1.coords t) (iblk1 V c 0 t) (iblk1 V c 1 t) (iblk1 V c 2 t) (iblk1 V c 3 t) s p q).trans ?_
  refine congrArg (fun z => (s : S1024x512.Idx → EReal) (ix2 p q) + z) ?_
  unfold Cert.Spec.part
  refine Finset.sum_congr rfl fun k _ => ?_
  unfold Cert.Spec.term
  refine congrArg₂ (fun (x y : EReal) => x * y) (congrArg₂ (fun (x y : EReal) => x * y) (congrArg₂ (fun (x y : EReal) => x * y) ?_ ?_) ?_) ?_
  · exact iblk1_1_apply V c t (ix2 p (0 : Fin 1)) (ix2 (⟨1024 * r.val + p.val, by omega⟩ : Fin 8192) (0 : Fin 1))
      (by show 1024 * r.val + p.val = 1024 * (t.val / 8) + p.val; omega) rfl
  · exact iblk1_0_apply V c t (ix2 p k) (ix2 (⟨1024 * r.val + p.val, by omega⟩ : Fin 8192) (Cert.Spec.blkIdx kb k))
      (by show 1024 * r.val + p.val = 1024 * (t.val / 8) + p.val; omega)
      (by show 1024 * kb.val + k.val = 1024 * (t.val % 8) + k.val; omega)
  · exact iblk1_2_apply V c t (ix2 (0 : Fin 1) k) (ix2 (0 : Fin 1) (Cert.Spec.blkIdx kb k)) rfl
      (by show 1024 * kb.val + k.val = 1024 * (t.val % 8) + k.val; omega)
  · obtain ⟨-, -, -, -, -, -, -, -, -, -, ec⟩ := idx_facts1 t
    refine iblk1_3_apply V c t ((rH (grid1.coords t)).idx (ix2 k q)) (ix2 (Cert.Spec.blkIdx kb k) q) ?_ ?_
    · show 1024 * kb.val + k.val = (k1_off1 (grid1.coords t)) 0 + 1 * k.val
      rw [k1_off1_eq]
      show 1024 * kb.val + k.val = 1024 * ((grid1.coords t) (1 : Fin 2)).val + 1 * k.val
      rw [ec]; omega
    · show q.val = (k1_off1 (grid1.coords t)) 1 + 1 * q.val
      rw [k1_off1_eq]
      show q.val = 0 + 1 * q.val
      omega

/-- The reset leaves zero at every entry. -/
theorem gcnZero_apply (p : Fin 1024) (q : Fin 512) : ((gcnZero (F := Ideal)) : S1024x512.Idx → EReal) (ix2 p q) = 0 := by
  rw [gcnZero_eq]; exact k1_pay1_apply p q

/-- The scratch after a point depends on the point's number only. -/
theorem sAt_congr (c : Dev nD) {n n' : ℕ} (e : n = n') (hn : n < cfg1.N) (hn' : n' < cfg1.N) : sAt V c n hn = sAt V c n' hn' := by
  subst e; rfl

/-- THE RUNNING SUM. After point `8 r + k` the scratch's entry `(p, q)` is the running sum, up to block `k`, of the block
    sums of the aggregation at row `1024 r + p`: by induction on `k`, the first step adding block 0 onto zero and each later
    step adding its block onto what the step before left. -/
theorem sAt_apply (c : Dev nD) (r : Fin 8) (p : Fin 1024) (q : Fin 512) :
    ∀ (k : ℕ) (hk : k < 8) (hn : 8 * r.val + k < cfg1.N),
      (sAt V c (8 * r.val + k) hn : S1024x512.Idx → EReal) (ix2 p q)
        = Cert.Spec.acc (Cert.Spec.part (adjOf V c) (drOf V c) (dcOf V c) (hOf V c) ⟨1024 * r.val + p.val, by omega⟩ q) k hk
  | 0, hk, hn => by
    refine (congrFun (sAt_first V c ⟨8 * r.val + 0, hn⟩ (by show (8 * r.val + 0) % 8 = 0; omega)) (ix2 p q)).trans ?_
    refine (stepAt_apply V c ⟨8 * r.val + 0, hn⟩ r ⟨0, hk⟩ rfl _ p q).trans ?_
    rw [gcnZero_apply]
    rfl
  | k + 1, hk, hn => by
    refine (congrFun (sAt_next V c ⟨8 * r.val + (k + 1), hn⟩ (by show (8 * r.val + (k + 1)) % 8 ≠ 0; omega)) (ix2 p q)).trans ?_
    refine (stepAt_apply V c ⟨8 * r.val + (k + 1), hn⟩ r ⟨k + 1, hk⟩ rfl _ p q).trans ?_
    have hn0 : 8 * r.val + k < cfg1.N := by omega
    rw [sAt_congr V c (show 8 * r.val + (k + 1) - 1 = 8 * r.val + k by omega) _ hn0, sAt_apply c r p q k (by omega) hn0]
    rfl

/-! ## From blocks to the array -/

/-- The aggregation of the four arrays, as one array. -/
def aggArr (c : Dev nD) : S8192x512.Idx → EReal := fun i =>
  Cert.Spec.agg (adjOf V c) (drOf V c) (dcOf V c) (hOf V c) ⟨(i 0).val, idx2_lt0 i⟩ ⟨(i 1).val, idx2_lt1 i⟩

/-- WHAT A FLUSHING POINT WRITES BACK: at `t = 8 r + 7` the copy of the scratch, whose entry `(p, q)` is the running sum
    after the last block, the whole aggregation at row `1024 r + p`: row block `r` of the aggregation. -/
theorem flushed1_eq (c : Dev nD) (t : Fin cfg1.N) (hf : (cfg1.win 4).flush t = true) :
    (dat1 (F := Ideal) V c).flushed 4 t = ((cfg1.win 4).blk t).view.read (Elt Ideal) (aggArr V c) := by
  have hN : cfg1.N = 64 := N_1
  have h7 : t.val % 8 = 7 := (flush1_4 t).mp hf
  have htl : t.val < 64 := hN ▸ t.isLt
  obtain ⟨-, -, -, -, -, -, -, -, e40, e41, -⟩ := idx_facts1 t
  show (cfg1.win 4).cut (grid1.coords t) ((dat1 (F := Ideal) V c).after 4 t) = _
  rw [after1_4, gcnOut_eq]
  funext y
  obtain ⟨p, q, rfl⟩ : ∃ (p : Fin 1024) (q : Fin 512), y = ix2 p q := ⟨y 0, y 1, eq_ix2 y⟩
  rw [View.read_apply]
  show (sAt V c t.val t.isLt : S1024x512.Idx → EReal) (ix2 p q) = aggArr V c (((cfg1.win 4).blk t).view.emb (ix2 p q))
  have hr8 : t.val / 8 < 8 := by omega
  rw [sAt_congr V c (show t.val = 8 * (⟨t.val / 8, hr8⟩ : Fin 8).val + 7 by show t.val = 8 * (t.val / 8) + 7; omega) t.isLt (by show 8 * (t.val / 8) + 7 < cfg1.N; omega),
    sAt_apply V c ⟨t.val / 8, hr8⟩ p q 7 (by decide) _, Cert.Spec.agg_eq_acc]
  unfold aggArr
  refine congrArg₂ (Cert.Spec.agg (adjOf V c) (drOf V c) (dcOf V c) (hOf V c)) (Fin.ext ?_) (Fin.ext ?_)
  · show 1024 * (t.val / 8) + p.val = win1_4.index t 0 * 1024 + 1 * p.val
    rw [e40]; omega
  · show q.val = win1_4.index t 1 * 512 + 1 * q.val
    rw [e41]; omega

/-- An entry of the array is in point `t`'s block iff each coordinate is in the block's range on its axis. -/
theorem mem_blk1_4 (t : Fin cfg1.N) (i : S8192x512.Idx) :
    i ∈ ((cfg1.win 4).blk t).view.set ↔ ∀ a : Fin 2, win1_4.index t a * S1024x512.size a ≤ (i a).val ∧ (i a).val < win1_4.index t a * S1024x512.size a + S1024x512.size a := by
  show i ∈ ((View.whole main_v33).slice (win1_4.rect t)).set ↔ _
  rw [View.set_slice_whole, Rect.mem_set_unit]
  exact Iff.rfl

/-- THE COVER: row `i₀` lies in row block `i₀ / 1024`, which the last point of that row of the grid writes back. -/
theorem cover1_4 (i : S8192x512.Idx) :
    ∃ t : Fin cfg1.N, (cfg1.win 4).flush t = true ∧ i ∈ ((cfg1.win 4).blk t).view.set := by
  have hN : cfg1.N = 64 := N_1
  have hi0 : (i 0).val < 8192 := idx2_lt0 i
  have hi1 : (i 1).val < 512 := idx2_lt1 i
  have htl : 8 * ((i 0).val / 1024) + 7 < cfg1.N := by rw [hN]; omega
  refine ⟨⟨8 * ((i 0).val / 1024) + 7, htl⟩, (flush1_4 _).mpr (by show (8 * ((i 0).val / 1024) + 7) % 8 = 7; omega), ?_⟩
  obtain ⟨-, -, -, -, -, -, -, -, e40, e41, -⟩ := idx_facts1 ⟨8 * ((i 0).val / 1024) + 7, htl⟩
  rw [mem_blk1_4]
  intro a
  match a with
  | ⟨0, _⟩ =>
    show win1_4.index ⟨8 * ((i 0).val / 1024) + 7, htl⟩ 0 * 1024 ≤ (i 0).val ∧ (i 0).val < win1_4.index ⟨8 * ((i 0).val / 1024) + 7, htl⟩ 0 * 1024 + 1024
    rw [e40]
    show (8 * ((i 0).val / 1024) + 7) / 8 * 1024 ≤ (i 0).val ∧ (i 0).val < (8 * ((i 0).val / 1024) + 7) / 8 * 1024 + 1024
    omega
  | ⟨1, _⟩ =>
    show win1_4.index ⟨8 * ((i 0).val / 1024) + 7, htl⟩ 1 * 512 ≤ (i 1).val ∧ (i 1).val < win1_4.index ⟨8 * ((i 0).val / 1024) + 7, htl⟩ 1 * 512 + 512
    rw [e41]; omega

/-- After region 1 its output array is the aggregation of its input arrays: the adjacency matrix, the scaling as a
    column and as a row, and the features. -/
theorem final33 (c : Dev nD) (p : Fin 8192) (q : Fin 512) :
    ((dat1 (F := Ideal) V c).arrAt 4 cfg1.N : S8192x512.Idx → EReal) (ix2 p q)
      = Cert.Spec.agg (fun p k => (V c main_v22 : S8192x8192.Idx → EReal) (ix2 p k))
          (fun p => (V c main_v31 : S8192x1.Idx → EReal) (ix2 p (0 : Fin 1)))
          (fun k => (V c main_v32 : S1x8192.Idx → EReal) (ix2 (0 : Fin 1) k))
          (fun k q => (V c main_v30 : S8192x512.Idx → EReal) (ix2 k q)) p q := by
  have h := (dat1 (F := Ideal) V c).arrAt_eq_of_cover 4 (aggArr V c) (fun t hf => flushed1_eq V c t hf) (cover1_4)
  exact congrFun h (ix2 p q)

end Cert.KernelIdeal.HandValue

end
-- ==== Proof.RefValue.lean ====
/-
  The reference, read as the specification.

  The reference builds the dense adjacency matrix from the edge list (a scatter of ones over zeros, self loops
  appended), its row sums, the scaling `d = where(deg > 0, rsqrt(max(deg, 1e-30)), 0)`, then
  `norm = (d[:, None] · adj) · d[None, :]`, `h = x · wᵀ + b` and `norm · h`. Both programs compute `adj` and `d` by the
  same host operations of the edge list alone, so they are carried here as two opaque functions of it (`adjOf`,
  `dOf`: the generated stages for those values) and never opened. Read at an index, the result is the aggregation of
  `Spec` with both scalings `dOf` and the features the linear layer of `Spec`.
-/
import proofs.«109997_j19645180412416_1_alg».proof.Proof.RefRead
import proofs.«109997_j19645180412416_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.StableHlo Idealize.ShloMosaic.ValueIdx

/-- The dense adjacency matrix the reference builds from the edge list, entry by entry. -/
def adjOf (e : (⟨S2x262144, .i32⟩ : BufTy).Contents (Elt Ideal)) (p k : Fin 8192) : EReal :=
  val_main_v22 (F := Ideal) e (ix2 p k)

/-- The degree scaling the reference computes from the edge list, node by node. -/
def dOf (e : (⟨S2x262144, .i32⟩ : BufTy).Contents (Elt Ideal)) (p : Fin 8192) : EReal :=
  val_main_v29 (F := Ideal) e (ix1 p)

/-! Index equations: the composed index functions of the stages, at an index given by its coordinates. -/

/-- The left operand of the last contraction is read at row `p`, column `k`. -/
theorem lidx41 (p : Fin 8192) (q : Fin 512) (k : Fin 8192) :
    lidx_main_v41 (ix2 p q) k = ix2 p k :=
  funext fun a => Fin.ext (by match a with | ⟨0, _⟩ => rfl | ⟨1, _⟩ => rfl)

/-- The right operand of the last contraction is read at row `k`, column `q`. -/
theorem ridx41 (p : Fin 8192) (q : Fin 512) (k : Fin 8192) :
    ridx_main_v41 (ix2 p q) k = ix2 k q :=
  funext fun a => Fin.ext (by match a with | ⟨0, _⟩ => rfl | ⟨1, _⟩ => rfl)

/-- The row scaling, broadcast along the columns, is read at its row. -/
theorem idx31 (p k : Fin 8192) : idx_main_v31 (ix2 p k) = ix2 p (0 : Fin 1) :=
  funext fun a => Fin.ext (by match a with | ⟨0, _⟩ => rfl | ⟨1, _⟩ => rfl)

/-- The row scaling as a column is read at its row. -/
theorem idx30 (p : Fin 8192) : idx_main_v30 (ix2 p (0 : Fin 1)) = ix1 p :=
  funext fun a => Fin.ext (by match a with | ⟨0, _⟩ => rfl)

/-- The column scaling, broadcast along the rows, is read at its column. -/
theorem idx34 (p k : Fin 8192) : idx_main_v34 (ix2 p k) = ix2 (0 : Fin 1) k :=
  funext fun a => Fin.ext (by match a with | ⟨0, _⟩ => rfl | ⟨1, _⟩ => rfl)

/-- The column scaling as a row is read at its column. -/
theorem idx33 (k : Fin 8192) : idx_main_v33 (ix2 (0 : Fin 1) k) = ix1 k :=
  funext fun a => Fin.ext (by match a with | ⟨0, _⟩ => rfl)

/-- The features are read at row `k`, channel `l`. -/
theorem lidx37 (k : Fin 8192) (q l : Fin 512) : lidx_main_v37 (ix2 k q) l = ix2 k l :=
  funext fun a => Fin.ext (by match a with | ⟨0, _⟩ => rfl | ⟨1, _⟩ => rfl)

/-- The transposed weights are read at row `l`, column `q`. -/
theorem ridx37 (k : Fin 8192) (q l : Fin 512) : ridx_main_v37 (ix2 k q) l = ix2 l q :=
  funext fun a => Fin.ext (by match a with | ⟨0, _⟩ => rfl | ⟨1, _⟩ => rfl)

/-- The transpose swaps the two coordinates. -/
theorem idx36 (l q : Fin 512) : idx_main_v36 (ix2 l q) = ix2 q l :=
  funext fun a => Fin.ext (by match a with | ⟨0, _⟩ => rfl | ⟨1, _⟩ => rfl)

/-- The bias, broadcast along the rows, is read at its channel. -/
theorem idx39 (k : Fin 8192) (q : Fin 512) : idx_main_v39 (ix2 k q) = ix2 (0 : Fin 1) q :=
  funext fun a => Fin.ext (by match a with | ⟨0, _⟩ => rfl | ⟨1, _⟩ => rfl)

/-- The bias as a row is read at its channel. -/
theorem idx38 (q : Fin 512) : idx_main_v38 (ix2 (0 : Fin 1) q) = ix1 q :=
  funext fun a => Fin.ext (by match a with | ⟨0, _⟩ => rfl)

/-- The reference's result at an index is the specification's aggregation of the specification's linear layer. -/
theorem ref_eq (x : (⟨S8192x512, .f32⟩ : BufTy).Contents (Elt Ideal)) (e : (⟨S2x262144, .i32⟩ : BufTy).Contents (Elt Ideal))
    (w : (⟨S512x512, .f32⟩ : BufTy).Contents (Elt Ideal)) (b : (⟨S512, .f32⟩ : BufTy).Contents (Elt Ideal))
    (p : Fin 8192) (q : Fin 512) :
    val_main_v41 (F := Ideal) x e w b (ix2 p q)
      = Cert.Spec.agg (adjOf e) (dOf e) (dOf e)
          (Cert.Spec.lin (fun j l => x (ix2 j l)) (fun a l => w (ix2 a l)) (fun a => b (ix1 a))) p q := by
  -- The last stage is a sum over all nodes `k`; the aggregation is the same sum, so compare term by term.
  rw [val_main_v41_apply]
  unfold Cert.Spec.agg
  refine Finset.sum_congr rfl fun k _ => ?_
  -- Left factor: ((d p · adj p k) · d k), the two scalings read through their broadcasts.
  -- Right factor: the linear layer at (k, q), a sum over the 512 channels plus the bias.
  rw [lidx41, ridx41, val_main_v35_apply, val_main_v32_apply, val_main_v31_apply, val_main_v30_apply,
    val_main_v34_apply, val_main_v33_apply, val_main_v40_apply, val_main_v37_apply, val_main_v39_apply,
    val_main_v38_apply]
  simp only [idx31, idx30, idx34, idx33, idx39, idx38, lidx37, ridx37, val_main_v36_apply, idx36,
    Ideal.mulf_def, Ideal.addf_def, Cert.Spec.term, Cert.Spec.lin, adjOf, dOf]

end Cert.ReferenceIdeal.RefValue

end
-- ==== Proof.HostValues.lean ====
/-
  The host side of the kernel's program, read at the buffers the second region is entered with.

  Before its regions the kernel's @main computes the adjacency matrix `main_v22` and the degree scaling `main_v29`
  from the edge list by the very operations the reference applies (both were traced from the same jax lines), and
  after region 0 reshapes the scaling into a column `main_v31` and a row `main_v32`. So, at the exact instance, region
  1's entry contents hold: the reference's adjacency `adjOf` of the edge list; its scaling `dOf` down the column and
  along the row; region 0's result `out30` in `main_v30`; and region 0's entry contents hold the three float arguments
  as launched. The two host chains are compared whole, as opaque functions of the edge list, never entry by entry.
-/
import proofs.«109997_j19645180412416_1_alg».proof.Proof.Frame.Entry
import proofs.«109997_j19645180412416_1_alg».proof.Proof.RefValue
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx

/-! ## The two host chains, at any float family

The adjacency matrix and the scaling are written by host operations of the edge list alone, the same on both sides:
the buffers' contents after the stretches are the reference's stages, as functions of the launched edge list. -/

section Chains

variable {F : FTy → Type} [FloatOps F]
variable (m : (ℓ : Loc nD τ sig) → Buf (Elt F) ℓ)

set_option maxHeartbeats 4000000 in
/-- After the first host stretch `main_v22` holds the reference's scatter stage of the launched edge list. -/
theorem V1_v22 (c : Dev nD) :
    (Gen.V1 m c main_v22 : (⟨S8192x8192, .f32⟩ : BufTy).Contents (Elt F))
      = Cert.ReferenceIdeal.ReadP.val_main_v22 (F := F) (m ((c : Thread nD τ).loc main_arg1)) := by
  show StableHlo.after hostOps0 _ (Proc.devRef .tc main_v22) = _
  after_results
  rfl

set_option maxHeartbeats 4000000 in
/-- … `main_v25` the comparison of the row sums with zero, -/
theorem V1_v25 (c : Dev nD) :
    (Gen.V1 m c main_v25 : (⟨S8192, .i1⟩ : BufTy).Contents (Elt F))
      = Cert.ReferenceIdeal.ReadP.val_main_v25 (F := F) (m ((c : Thread nD τ).loc main_arg1)) := by
  show StableHlo.after hostOps0 _ (Proc.devRef .tc main_v25) = _
  after_results
  rfl

set_option maxHeartbeats 4000000 in
/-- … `main_v28` the reciprocal square root of the clamped row sums, -/
theorem V1_v28 (c : Dev nD) :
    (Gen.V1 m c main_v28 : (⟨S8192, .f32⟩ : BufTy).Contents (Elt F))
      = Cert.ReferenceIdeal.ReadP.val_main_v28 (F := F) (m ((c : Thread nD τ).loc main_arg1)) := by
  show StableHlo.after hostOps0 _ (Proc.devRef .tc main_v28) = _
  after_results
  rfl

set_option maxHeartbeats 4000000 in
/-- … and `main_cst_7` the zero the selection falls back to. -/
theorem V1_cst_7 (c : Dev nD) :
    (Gen.V1 m c main_cst_7 : (⟨S_, .f32⟩ : BufTy).Contents (Elt F))
      = Cert.ReferenceIdeal.ReadP.val_main_cst_7 (F := F) := by
  show StableHlo.after hostOps0 _ (Proc.devRef .tc main_cst_7) = _
  after_results
  rfl

set_option maxHeartbeats 4000000 in
/-- After the second host stretch (the selection) `main_v29` holds the reference's scaling stage. -/
theorem V2_v29 (c : Dev nD) :
    (Gen.V2 m c main_v29 : (⟨S8192, .f32⟩ : BufTy).Contents (Elt F))
      = Cert.ReferenceIdeal.ReadP.val_main_v29 (F := F) (m ((c : Thread nD τ).loc main_arg1)) := by
  have h25 := V1_v25 m c
  have h28 := V1_v28 m c
  have h7 := V1_cst_7 m c
  show StableHlo.after hostOps0_1 (Gen.V1 m c) (Proc.devRef .tc main_v29) = _
  generalize Gen.V1 m c = W at h25 h28 h7 ⊢
  after_results
  simp only [StableHlo.TRef.ofBuf, StableHlo.TRef.toBuf, StableHlo.TRef.of, cast_eq]
  rw [h25, h28, h7]
  rfl

end Chains

variable (m : (ℓ : Loc nD τ sig) → Buf (Elt Ideal) ℓ)

/-- Region 0 is entered with the arguments as launched. -/
theorem E0_arg0 (c : Dev nD) : E0 m c main_arg0 = m ((c : Thread nD τ).loc main_arg0) :=
  (Gen.V2_of m c main_arg0 (by decide)).trans <| (Gen.V1_of m c main_arg0 (by decide)).trans rfl
theorem E0_arg2 (c : Dev nD) : E0 m c main_arg2 = m ((c : Thread nD τ).loc main_arg2) :=
  (Gen.V2_of m c main_arg2 (by decide)).trans <| (Gen.V1_of m c main_arg2 (by decide)).trans rfl
theorem E0_arg3 (c : Dev nD) : E0 m c main_arg3 = m ((c : Thread nD τ).loc main_arg3) :=
  (Gen.V2_of m c main_arg3 (by decide)).trans <| (Gen.V1_of m c main_arg3 (by decide)).trans rfl

/-- Region 1 is entered with region 0's result in `main_v30`. -/
theorem E1_v30 (c : Dev nD) : E1 m c main_v30 = out30 m c := by
  refine (Gen.V4_of m (outsA m) c main_v30 (by decide)).trans ?_
  show Function.update (Gen.V2 m c) (Proc.devRef .tc main_v30) (outsA m 3 main_v30 c) (Proc.devRef .tc main_v30) = _
  rw [Function.update_self, outsA_v30]

/-- Region 1 is entered with the reference's adjacency matrix of the launched edge list in `main_v22`. -/
theorem E1_v22 (c : Dev nD) (p k : Fin 8192) :
    (E1 m c main_v22 : S8192x8192.Idx → EReal) (ix2 p k)
      = Cert.ReferenceIdeal.RefValue.adjOf (m ((c : Thread nD τ).loc main_arg1)) p k := by
  have h : (E1 m c main_v22 : (⟨S8192x8192, .f32⟩ : BufTy).Contents (Elt Ideal))
      = Cert.ReferenceIdeal.ReadP.val_main_v22 (F := Ideal) (m ((c : Thread nD τ).loc main_arg1)) :=
    (Gen.V4_of m (outsA m) c main_v22 (by decide)).trans <| (Gen.V3_of m (outsA m) c main_v22 (by decide)).trans <|
      (Gen.V2_of m c main_v22 (by decide)).trans (V1_v22 m c)
  unfold Cert.ReferenceIdeal.RefValue.adjOf
  exact congrFun h (ix2 p k)

/-- … with the reference's scaling down the column `main_v31`, -/
theorem E1_v31 (c : Dev nD) (p : Fin 8192) :
    (E1 m c main_v31 : S8192x1.Idx → EReal) (ix2 p (0 : Fin 1))
      = Cert.ReferenceIdeal.RefValue.dOf (m ((c : Thread nD τ).loc main_arg1)) p := by
  have h29 : (Gen.V3 m (outsA m) c main_v29 : (⟨S8192, .f32⟩ : BufTy).Contents (Elt Ideal))
      = Cert.ReferenceIdeal.ReadP.val_main_v29 (F := Ideal) (m ((c : Thread nD τ).loc main_arg1)) :=
    (Gen.V3_of m (outsA m) c main_v29 (by decide)).trans (V2_v29 m c)
  have h : (E1 m c main_v31 : (⟨S8192x1, .f32⟩ : BufTy).Contents (Elt Ideal))
      = shapeCast S8192x1 (Cert.ReferenceIdeal.ReadP.val_main_v29 (F := Ideal) (m ((c : Thread nD τ).loc main_arg1)))
          shapeCasts_S8192_S8192x1 := by
    show StableHlo.after hostOps1 (Gen.V3 m (outsA m) c) (Proc.devRef .tc main_v31) = _
    generalize Gen.V3 m (outsA m) c = W at h29 ⊢
    after_results
    rw [h29]
    generalize Cert.ReferenceIdeal.ReadP.val_main_v29 (F := Ideal) (m ((c : Thread nD τ).loc main_arg1)) = y
    rfl
  unfold Cert.ReferenceIdeal.RefValue.dOf
  refine (congrFun h (ix2 p (0 : Fin 1))).trans ?_
  generalize Cert.ReferenceIdeal.ReadP.val_main_v29 (F := Ideal) (m ((c : Thread nD τ).loc main_arg1)) = y
  exact shapeCast_apply y shapeCasts_S8192_S8192x1 (ix2 p (0 : Fin 1)) (ix1 p)
    (by rw [Shape.rowMajor_val_two, Shape.rowMajor_val_one]; show p.val = p.val * 1 + 0; omega)

/-- … and along the row `main_v32`. -/
theorem E1_v32 (c : Dev nD) (k : Fin 8192) :
    (E1 m c main_v32 : S1x8192.Idx → EReal) (ix2 (0 : Fin 1) k)
      = Cert.ReferenceIdeal.RefValue.dOf (m ((c : Thread nD τ).loc main_arg1)) k := by
  have h29 : (Gen.V3 m (outsA m) c main_v29 : (⟨S8192, .f32⟩ : BufTy).Contents (Elt Ideal))
      = Cert.ReferenceIdeal.ReadP.val_main_v29 (F := Ideal) (m ((c : Thread nD τ).loc main_arg1)) :=
    (Gen.V3_of m (outsA m) c main_v29 (by decide)).trans (V2_v29 m c)
  have h : (E1 m c main_v32 : (⟨S1x8192, .f32⟩ : BufTy).Contents (Elt Ideal))
      = shapeCast S1x8192 (Cert.ReferenceIdeal.ReadP.val_main_v29 (F := Ideal) (m ((c : Thread nD τ).loc main_arg1)))
          shapeCasts_S8192_S1x8192 := by
    show StableHlo.after hostOps1 (Gen.V3 m (outsA m) c) (Proc.devRef .tc main_v32) = _
    generalize Gen.V3 m (outsA m) c = W at h29 ⊢
    after_results
    rw [h29]
    generalize Cert.ReferenceIdeal.ReadP.val_main_v29 (F := Ideal) (m ((c : Thread nD τ).loc main_arg1)) = y
    rfl
  unfold Cert.ReferenceIdeal.RefValue.dOf
  refine (congrFun h (ix2 (0 : Fin 1) k)).trans ?_
  generalize Cert.ReferenceIdeal.ReadP.val_main_v29 (F := Ideal) (m ((c : Thread nD τ).loc main_arg1)) = y
  exact shapeCast_apply y shapeCasts_S8192_S1x8192 (ix2 (0 : Fin 1) k) (ix1 k)
    (by rw [Shape.rowMajor_val_two, Shape.rowMajor_val_one]; show k.val = 0 * 8192 + k.val; omega)

end Cert.KernelIdeal.HandValue

end
-- ==== Proof.Bridge.lean ====
/-
  The two results are one function.

  At the exact instance the kernel's result array is what region 1 leaves (`out33`): the aggregation of the adjacency
  matrix, the scaling and region 0's result, which is the linear layer of the arguments. The kernel's host operations
  build the adjacency matrix and the scaling exactly as the reference does. So, from memories that agree on the four
  arguments, the kernel's result is the reference's, entry by entry: both are the specification's
  `agg adj d d (lin x w b)`.
-/
import proofs.«109997_j19645180412416_1_alg».proof.Proof.Frame.Run
import proofs.«109997_j19645180412416_1_alg».proof.Proof.Value0
import proofs.«109997_j19645180412416_1_alg».proof.Proof.Value1
import proofs.«109997_j19645180412416_1_alg».proof.Proof.HostValues
import proofs.«109997_j19645180412416_1_alg».proof.Proof.RefValue

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx

variable (m : (ℓ : Loc nD τ sig) → Buf (Elt Ideal) ℓ)

/-- The kernel's result at an index: the specification of the launched arguments. -/
theorem out33_apply (c : Dev nD) (p : Fin 8192) (q : Fin 512) :
    (out33 m c : S8192x512.Idx → EReal) (ix2 p q)
      = Cert.Spec.agg (Cert.ReferenceIdeal.RefValue.adjOf (m ((c : Thread nD τ).loc main_arg1)))
          (Cert.ReferenceIdeal.RefValue.dOf (m ((c : Thread nD τ).loc main_arg1)))
          (Cert.ReferenceIdeal.RefValue.dOf (m ((c : Thread nD τ).loc main_arg1)))
          (Cert.Spec.lin (fun j l => (m ((c : Thread nD τ).loc main_arg0) : S8192x512.Idx → EReal) (ix2 j l))
            (fun a l => (m ((c : Thread nD τ).loc main_arg2) : S512x512.Idx → EReal) (ix2 a l))
            (fun a => (m ((c : Thread nD τ).loc main_arg3) : S512.Idx → EReal) (ix1 a))) p q := by
  -- region 1's result is the aggregation of its four input arrays; each is identified in turn
  have hagg : ∀ (f1 f1' : Fin 8192 → Fin 8192 → EReal) (f2 f2' f3 f3' : Fin 8192 → EReal) (f4 f4' : Fin 8192 → Fin 512 → EReal),
      f1 = f1' → f2 = f2' → f3 = f3' → f4 = f4' → Cert.Spec.agg f1 f2 f3 f4 p q = Cert.Spec.agg f1' f2' f3' f4' p q := by
    intro f1 f1' f2 f2' f3 f3' f4 f4' h1 h2 h3 h4; subst h1; subst h2; subst h3; subst h4; rfl
  have hlin : ∀ (g1 g1' : Fin 8192 → Fin 512 → EReal) (g2 g2' : Fin 512 → Fin 512 → EReal) (g3 g3' : Fin 512 → EReal) (k : Fin 8192) (r : Fin 512),
      g1 = g1' → g2 = g2' → g3 = g3' → Cert.Spec.lin g1 g2 g3 k r = Cert.Spec.lin g1' g2' g3' k r := by
    intro g1 g1' g2 g2' g3 g3' k r h1 h2 h3; subst h1; subst h2; subst h3; rfl
  refine (final33 (E1 m) c p q).trans (hagg _ _ _ _ _ _ _ _
    (funext fun p => funext fun k => E1_v22 m c p k)
    (funext fun p => E1_v31 m c p)
    (funext fun k => E1_v32 m c k)
    (funext fun k => funext fun r => ?_))
  -- the features region 1 reads are region 0's result: the linear layer of the launched arguments
  refine (congrFun (E1_v30 m c) (ix2 k r)).trans ((final30 (E0 m) c k r).trans (hlin _ _ _ _ _ _ k r
    (funext fun j => funext fun l => congrFun (E0_arg0 m c) (ix2 j l))
    (funext fun a => funext fun l => congrFun (E0_arg2 m c) (ix2 a l))
    (funext fun a => congrFun (E0_arg3 m c) (ix1 a))))

/-- From memories that agree on the four arguments, the reference's result is the kernel's. -/
theorem res_eq (m' : (ℓ : Loc Cert.ReferenceIdeal.nD Cert.ReferenceIdeal.τ Cert.ReferenceIdeal.sig) → Buf (Elt Ideal) ℓ)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3))
    (c : Dev nD) :
    Cert.ReferenceIdeal.ValueP.res_main_v41 (F := Ideal) m' c = out33 m c := by
  rw [Cert.ReferenceIdeal.ReadP.val_main_v41_eq, (hagree c).1, (hagree c).2.1, (hagree c).2.2.1, (hagree c).2.2.2]
  funext j
  obtain ⟨p, q, rfl⟩ : ∃ (p : Fin 8192) (q : Fin 512), j = ix2 p q := ⟨j 0, j 1, eq_ix2 j⟩
  rw [Cert.ReferenceIdeal.RefValue.ref_eq]
  exact (out33_apply m c p q).symm

end Cert.KernelIdeal.HandValue

end
-- ==== Proof.lean ====
/-
  The certificate of a graph-convolution layer: a Pallas kernel program against its jnp reference.

  Both programs build, on the host and by the same operations, the dense adjacency matrix `adj` of the edge list
  (self loops appended) and the degree scaling `d = where(deg > 0, rsqrt(max(deg, 1e-30)), 0)`. The reference then
  forms `norm = (d[:, None] · adj) · d[None, :]`, `h = x · wᵀ + b` and `norm · h`. The kernel program computes `h` in a
  first kernel region, one row block of 1024 nodes per grid point, and `norm · h` in a second, over an 8 × 8 grid: at
  point `(r, k)` it normalises the adjacency tile `(r, k)` on the fly, multiplies it into rows `1024 k …` of `h` and adds
  the product to an accumulator carried from point to point, reset at `k = 0` and written out at `k = 7`.
  Over the extended reals (every narrowing to bf16 the identity, the matrix unit's product into a zero accumulator the
  plain sum) both results are `Σₖ ((d p · adj p k) · d k) · h k q` with the same grouping of every product; the kernel only
  sums `k` block by block onto zero, and addition of extended reals is commutative and associative, so the two sums
  agree with no appeal to finiteness (`Spec.agg_eq_acc`). The ideal pass rewrote nothing, so the idealization claim is
  trivial.
  The frames: the reference's is its generated run with the result dropped; the two kernel programs' (the word-level
  one and its idealization run the same text) are the run of @main as five segments — host stretch, host stretch,
  region, host stretch, region — with one proof-data family per region (`Frame/Data.lean`), the aggregation's carried
  accumulator named point by point in its region's invariant.
-/
import proofs.«109997_j19645180412416_1_alg».proof.Defs
import proofs.«109997_j19645180412416_1_alg».proof.Proof.Gen.Kernel
import proofs.«109997_j19645180412416_1_alg».proof.Proof.Gen.KernelIdeal
import proofs.«109997_j19645180412416_1_alg».proof.Proof.Gen.ReferenceIdeal
import proofs.«109997_j19645180412416_1_alg».proof.Proof.Gen.Pre_finite_inputs
import proofs.«109997_j19645180412416_1_alg».proof.Proof.Frame.Run
import proofs.«109997_j19645180412416_1_alg».proof.Proof.FrameBits.Run
import proofs.«109997_j19645180412416_1_alg».proof.Proof.RefRun
import proofs.«109997_j19645180412416_1_alg».proof.Proof.Bridge
import Idealize.ShloMosaic.Adequacy
import Idealize.ShloMosaic.Init

noncomputable section

namespace Cert.Proof

open Idealize.ShloMosaic Idealize.SL.Sem

/-- The word-level kernel program runs and keeps its arguments: its run with the result dropped. -/
theorem frame_k : @Cert.frame_Kernel Cert.Kernel.Gen.facts Cert.Pre_finite_inputs.Gen.facts := fun m ρ _ =>
  (θ_run Cert.Kernel.defs _ _).mono (fun _ h c => (h c).2) (Cert.Kernel.Hand.run_main (F := Bits) m ρ)

/-- The idealized kernel program runs and keeps its arguments. -/
theorem frame_ki : @Cert.frame_KernelIdeal Cert.KernelIdeal.Gen.facts Cert.Pre_finite_inputs.Gen.facts := fun m ρ _ =>
  (θ_run Cert.KernelIdeal.defs _ _).mono (fun _ h c => (h c).2) (Cert.KernelIdeal.Hand.run_main (F := Ideal) m ρ)

/-- The reference runs and keeps its arguments: its generated run with the result dropped. -/
theorem frame_r : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.ValueP.run (F := Ideal) m ρ)

/-- From memories agreeing on the arguments both idealized programs run and end with the same result: the kernel's
    result array is what its second region leaves, and the reference's result is that array (`res_eq`). -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.out33 m c, Cert.KernelIdeal.Hand.run_main (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.KernelIdeal.HandValue.res_eq m m' hagree c

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
